-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x512x2 : Shape := ⟨3, ![4096, 512, 2]⟩
abbrev S2x256x1x8 : Shape := ⟨4, ![2, 256, 1, 8]⟩
abbrev S4096x1x1x1 : Shape := ⟨4, ![4096, 1, 1, 1]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S2x256x1x8 : S_.BroadcastsInDim S2x256x1x8 (![] : Fin 0 → Fin S2x256x1x8.rank)
  reducesTo_S2x256x1x8_S_d0_1_2_3 : S2x256x1x8.ReducesTo [0, 1, 2, 3] S_
  bcast_S_S4096x1x1x1 : S_.BroadcastsInDim S4096x1x1x1 (![] : Fin 0 → Fin S4096x1x1x1.rank)
  reducesTo_S4096x1x1x1_S_d0_1_2_3 : S4096x1x1x1.ReducesTo [0, 1, 2, 3] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg5 : FVec F S16x4096 .f32) (main_arg6 : FVec F S4096x16 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S16x4096 .f32 := Host.absf main_arg5
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg6
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  main_v28

def fn {F : FTy → Type} [FloatOps F] (main_arg0 : FVec F S4x2048x4096 .f32) (main_arg1 : IVec S4096x512x2 32) (main_arg2 : FVec F S2x256x1x8 .f32) (main_arg3 : FVec F S4096x1x1x1 .f32) (main_arg4 : FVec F S4096 .f32) (main_arg5 : FVec F S16x4096 .f32) (main_arg6 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S2x256x1x8 .f32 := Host.absf main_arg2
  let main_cst_0 : FVec F S_ .f32 := constant S_ .f32 0x7F800000#32
  let main_v5 : FVec F S2x256x1x8 .f32 := broadcastInDim S2x256x1x8 ![] bcast_S_S2x256x1x8 main_cst_0
  let main_v6 : IVec S2x256x1x8 1 := cmpf .olt main_v4 main_v5
  let main_c_1 : IVec S_ 1 := constantI S_ 1 1#1
  let main_v7 : IVec S_ 1 := (fun x v => Host.reduce IntOp.andi x v reducesTo_S2x256x1x8_S_d0_1_2_3 h_S_) main_v6 main_c_1
  let main_v8 : IVec S_ 1 := andi main_v3 main_v7
  let main_v9 : FVec F S4096x1x1x1 .f32 := Host.absf main_arg3
  let main_cst_2 : FVec F S_ .f32 := constant S_ .f32 0x7F800000#32
  let main_v10 : FVec F S4096x1x1x1 .f32 := broadcastInDim S4096x1x1x1 ![] bcast_S_S4096x1x1x1 main_cst_2
  let main_v11 : IVec S4096x1x1x1 1 := cmpf .olt main_v9 main_v10
  let main_c_3 : IVec S_ 1 := constantI S_ 1 1#1
  let main_v12 : IVec S_ 1 := (fun x v => Host.reduce IntOp.andi x v reducesTo_S4096x1x1x1_S_d0_1_2_3 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg6 main_v13 main_v16
-- ==== Kernel.lean ====
abbrev S4x2048x4096 : Shape := ⟨3, ![4, 2048, 4096]⟩
abbrev S4096x512x2 : Shape := ⟨3, ![4096, 512, 2]⟩
abbrev S2x256x1x8 : Shape := ⟨4, ![2, 256, 1, 8]⟩
abbrev S4096x1x1x1 : Shape := ⟨4, ![4096, 1, 1, 1]⟩
abbrev S4096 : Shape := ⟨1, ![4096]⟩
abbrev S16x4096 : Shape := ⟨2, ![16, 4096]⟩
abbrev S4096x16 : Shape := ⟨2, ![4096, 16]⟩
abbrev S1x256x1x8 : Shape := ⟨4, ![1, 256, 1, 8]⟩
abbrev S256x1x8 : Shape := ⟨3, ![256, 1, 8]⟩
abbrev S4096x512x1 : Shape := ⟨3, ![4096, 512, 1]⟩
abbrev S4096x512 : Shape := ⟨2, ![4096, 512]⟩
abbrev S_ : Shape := ⟨0, ![]⟩
abbrev S1 : Shape := ⟨1, ![1]⟩
abbrev S1x1x1 : Shape := ⟨3, ![1, 1, 1]⟩
abbrev S4096x512x1x8 : Shape := ⟨4, ![4096, 512, 1, 8]⟩
abbrev S4096x1x512x8 : Shape := ⟨4, ![4096, 1, 512, 8]⟩
abbrev S4096x4096 : Shape := ⟨2, ![4096, 4096]⟩
abbrev S8192x4096 : Shape := ⟨2, ![8192, 4096]⟩
abbrev S1x4096 : Shape := ⟨2, ![1, 4096]⟩
abbrev S1024x1024 : Shape := ⟨2, ![1024, 1024]⟩
abbrev S1024x16 : Shape := ⟨2, ![1024, 16]⟩
abbrev S16x1024 : Shape := ⟨2, ![16, 1024]⟩
abbrev S1x1024 : Shape := ⟨2, ![1, 1024]⟩

abbrev nBuf : Space → Nat
  | .hbm => 77
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x512x2, .i32⟩
  | .hbm, ⟨2, _⟩ => ⟨S2x256x1x8, .f32⟩
  | .hbm, ⟨3, _⟩ => ⟨S4096x1x1x1, .f32⟩
  | .hbm, ⟨4, _⟩ => ⟨S4096, .f32⟩
  | .hbm, ⟨5, _⟩ => ⟨S16x4096, .f32⟩
  | .hbm, ⟨6, _⟩ => ⟨S4096x16, .f32⟩
  | .hbm, ⟨7, _⟩ => ⟨S1x256x1x8, .f32⟩
  | .hbm, ⟨8, _⟩ => ⟨S256x1x8, .f32⟩
  | .hbm, ⟨9, _⟩ => ⟨S4096x512x1, .i32⟩
  | .hbm, ⟨10, _⟩ => ⟨S4096x512, .i32⟩
  | .hbm, ⟨11, _⟩ => ⟨S_, .i32⟩
  | .hbm, ⟨12, _⟩ => ⟨S4096x512, .i32⟩
  | .hbm, ⟨13, _⟩ => ⟨S4096x512, .i1⟩
  | .hbm, ⟨14, _⟩ => ⟨S_, .i32⟩
  | .hbm, ⟨15, _⟩ => ⟨S4096x512, .i32⟩
  | .hbm, ⟨16, _⟩ => ⟨S4096x512, .i32⟩
  | .hbm, ⟨17, _⟩ => ⟨S4096x512, .i32⟩
  | .hbm, ⟨18, _⟩ => ⟨S4096x512x1, .i32⟩
  | .hbm, ⟨19, _⟩ => ⟨S1, .i32⟩
  | .hbm, ⟨20, _⟩ => ⟨S_, .i32⟩
  | .hbm, ⟨21, _⟩ => ⟨S4096x512x1, .i32⟩
  | .hbm, ⟨22, _⟩ => ⟨S4096x512x1, .i1⟩
  | .hbm, ⟨23, _⟩ => ⟨S1x1x1, .i32⟩
  | .hbm, ⟨24, _⟩ => ⟨S4096x512x1, .i32⟩
  | .hbm, ⟨25, _⟩ => ⟨S4096x512x1, .i1⟩
  | .hbm, ⟨26, _⟩ => ⟨S4096x512x1, .i1⟩
  | .hbm, ⟨27, _⟩ => ⟨S_, .i1⟩
  | .hbm, ⟨28, _⟩ => ⟨S4096x512, .i1⟩
  | .hbm, ⟨29, _⟩ => ⟨S4096x512x1x8, .f32⟩
  | .hbm, ⟨30, _⟩ => ⟨S4096x512x1x8, .i1⟩
  | .hbm, ⟨31, _⟩ => ⟨S_, .f32⟩
  | .hbm, ⟨32, _⟩ => ⟨S4096x512x1x8, .f32⟩
  | .hbm, ⟨33, _⟩ => ⟨S4096x512x1x8, .f32⟩
  | .hbm, ⟨34, _⟩ => ⟨S1x256x1x8, .f32⟩
  | .hbm, ⟨35, _⟩ => ⟨S256x1x8, .f32⟩
  | .hbm, ⟨36, _⟩ => ⟨S4096x512x1, .i32⟩
  | .hbm, ⟨37, _⟩ => ⟨S4096x512, .i32⟩
  | .hbm, ⟨38, _⟩ => ⟨S_, .i32⟩
  | .hbm, ⟨39, _⟩ => ⟨S4096x512, .i32⟩
  | .hbm, ⟨40, _⟩ => ⟨S4096x512, .i1⟩
  | .hbm, ⟨41, _⟩ => ⟨S_, .i32⟩
  | .hbm, ⟨42, _⟩ => ⟨S4096x512, .i32⟩
  | .hbm, ⟨43, _⟩ => ⟨S4096x512, .i32⟩
  | .hbm, ⟨44, _⟩ => ⟨S4096x512, .i32⟩
  | .hbm, ⟨45, _⟩ => ⟨S4096x512x1, .i32⟩
  | .hbm, ⟨46, _⟩ => ⟨S1, .i32⟩
  | .hbm, ⟨47, _⟩ => ⟨S_, .i32⟩
  | .hbm, ⟨48, _⟩ => ⟨S4096x512x1, .i32⟩
  | .hbm, ⟨49, _⟩ => ⟨S4096x512x1, .i1⟩
  | .hbm, ⟨50, _⟩ => ⟨S1x1x1, .i32⟩
  | .hbm, ⟨51, _⟩ => ⟨S4096x512x1, .i32⟩
  | .hbm, ⟨52, _⟩ => ⟨S4096x512x1, .i1⟩
  | .hbm, ⟨53, _⟩ => ⟨S4096x512x1, .i1⟩
  | .hbm, ⟨54, _⟩ => ⟨S_, .i1⟩
  | .hbm, ⟨55, _⟩ => ⟨S4096x512, .i1⟩
  | .hbm, ⟨56, _⟩ => ⟨S4096x512x1x8, .f32⟩
  | .hbm, ⟨57, _⟩ => ⟨S4096x512x1x8, .i1⟩
  | .hbm, ⟨58, _⟩ => ⟨S_, .f32⟩
  | .hbm, ⟨59, _⟩ => ⟨S4096x512x1x8, .f32⟩
  | .hbm, ⟨60, _⟩ => ⟨S4096x512x1x8, .f32⟩
  | .hbm, ⟨61, _⟩ => ⟨S4096x512x1x8, .f32⟩
  | .hbm, ⟨62, _⟩ => ⟨S4096x512x1x8, .f32⟩
  | .hbm, ⟨63, _⟩ => ⟨S4096x512x1x8, .f32⟩
  | .hbm, ⟨64, _⟩ => ⟨S4096x1x512x8, .f32⟩
  | .hbm, ⟨65, _⟩ => ⟨S4096x4096, .f32⟩
  | .hbm, ⟨66, _⟩ => ⟨S4096x4096, .f32⟩
  | .hbm, ⟨67, _⟩ => ⟨S4096x4096, .bf16⟩
  | .hbm, ⟨68, _⟩ => ⟨S8192x4096, .f32⟩
  | .hbm, ⟨69, _⟩ => ⟨S8192x4096, .bf16⟩
  | .hbm, ⟨70, _⟩ => ⟨S4096x16, .f32⟩
  | .hbm, ⟨71, _⟩ => ⟨S4096x16, .bf16⟩
  | .hbm, ⟨72, _⟩ => ⟨S16x4096, .f32⟩
  | .hbm, ⟨73, _⟩ => ⟨S16x4096, .bf16⟩
  | .hbm, ⟨74, _⟩ => ⟨S1x4096, .f32⟩
  | .hbm, ⟨75, _⟩ => ⟨S8192x4096, .f32⟩
  | .hbm, ⟨76, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S16x1024, .bf16⟩
  | .local _ .vmem, ⟨7, _⟩ => ⟨S16x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  slices_S2x256x1x8_S1x256x1x8_0_0_0_0 : S2x256x1x8.Slices ![0, 0, 0, 0] S1x256x1x8
  shapeCasts_S1x256x1x8_S256x1x8 : S1x256x1x8.ShapeCasts S256x1x8
  slices_S4096x512x2_S4096x512x1_0_0_0 : S4096x512x2.Slices ![0, 0, 0] S4096x512x1
  shapeCasts_S4096x512x1_S4096x512 : S4096x512x1.ShapeCasts S4096x512
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x1 : S_.BroadcastsInDim S4096x512x1 (![] : Fin 0 → Fin S4096x512x1.rank)
  bcast_S1_S1x1x1_2 : S1.BroadcastsInDim S1x1x1 (![2] : Fin 1 → Fin S1x1x1.rank)
  bcast_S1x1x1_S4096x512x1_0_1_2 : S1x1x1.BroadcastsInDim S4096x512x1 (![0, 1, 2] : Fin 3 → Fin S4096x512x1.rank)
  reducesTo_S4096x512x1_S4096x512_d2 : S4096x512x1.ReducesTo [2] S4096x512
  h_S_ : 0 < S_.numel
  bcast_S4096x512_S4096x512x1x8_0_1 : S4096x512.BroadcastsInDim S4096x512x1x8 (![0, 1] : Fin 2 → Fin S4096x512x1x8.rank)
  bcast_S_S4096x512x1x8 : S_.BroadcastsInDim S4096x512x1x8 (![] : Fin 0 → Fin S4096x512x1x8.rank)
  slices_S2x256x1x8_S1x256x1x8_1_0_0_0 : S2x256x1x8.Slices ![1, 0, 0, 0] S1x256x1x8
  slices_S4096x512x2_S4096x512x1_0_0_1 : S4096x512x2.Slices ![0, 0, 1] S4096x512x1
  bcast_S4096x1x1x1_S4096x512x1x8_0_1_2_3 : S4096x1x1x1.BroadcastsInDim S4096x512x1x8 (![0, 1, 2, 3] : Fin 4 → Fin S4096x512x1x8.rank)
  transposes_S4096x512x1x8_S4096x1x512x8_0_2_1_3 : S4096x512x1x8.Transposes [0, 2, 1, 3] S4096x1x512x8
  shapeCasts_S4096x1x512x8_S4096x4096 : S4096x1x512x8.ShapeCasts S4096x4096
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  transposes_S16x4096_S4096x16_1_0 : S16x4096.Transposes [1, 0] S4096x16
  transposes_S4096x16_S16x4096_1_0 : S4096x16.Transposes [1, 0] S16x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S256x1x8_S4096x512x1_S4096x512x1x8_23_0_n_n_0_2_118_wf : GatherDims.WF S256x1x8 S4096x512x1 S4096x512x1x8 [2, 3] [0] [] [0] [] 2 ![1, 1, 8]
  dot_S1024x1024_S1024x1024_S1024x1024_1_0_0_1_n_n_wf : DotDims.WF S1024x1024 S1024x1024 S1024x1024 [1] [0] [0] [1] [] []
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .bf16 = 32 ∨ (Rect.block (s := S4096x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def gather_S256x1x8_S4096x512x1_S4096x512x1x8_23_0_n_n_0_2_118 : GatherDims S256x1x8 S4096x512x1 S4096x512x1x8 where
  offsetDims := [2, 3]
  collapsedSliceDims := [0]
  operandBatchingDims := []
  startIndicesBatchingDims := []
  startIndexMap := [0]
  indexVectorDim := 2
  sliceSizes := ![1, 1, 8]
  wf := gather_S256x1x8_S4096x512x1_S4096x512x1x8_23_0_n_n_0_2_118_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x512x2 : Shape := ⟨3, ![4096, 512, 2]⟩
abbrev S2x256x1x8 : Shape := ⟨4, ![2, 256, 1, 8]⟩
abbrev S4096x1x1x1 : Shape := ⟨4, ![4096, 1, 1, 1]⟩
abbrev S4096 : Shape := ⟨1, ![4096]⟩
abbrev S16x4096 : Shape := ⟨2, ![16, 4096]⟩
abbrev S4096x16 : Shape := ⟨2, ![4096, 16]⟩
abbrev S1x256x1x8 : Shape := ⟨4, ![1, 256, 1, 8]⟩
abbrev S256x1x8 : Shape := ⟨3, ![256, 1, 8]⟩
abbrev S4096x512x1 : Shape := ⟨3, ![4096, 512, 1]⟩
abbrev S4096x512 : Shape := ⟨2, ![4096, 512]⟩
abbrev S_ : Shape := ⟨0, ![]⟩
abbrev S1 : Shape := ⟨1, ![1]⟩
abbrev S1x1x1 : Shape := ⟨3, ![1, 1, 1]⟩
abbrev S4096x512x1x8 : Shape := ⟨4, ![4096, 512, 1, 8]⟩
abbrev S4096x1x512x8 : Shape := ⟨4, ![4096, 1, 512, 8]⟩
abbrev S4096x4096 : Shape := ⟨2, ![4096, 4096]⟩
abbrev S1x1x4096 : Shape := ⟨3, ![1, 1, 4096]⟩
abbrev S4x2048x16 : Shape := ⟨3, ![4, 2048, 16]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x512x2, .i32⟩
  | .hbm, ⟨2, _⟩ => ⟨S2x256x1x8, .f32⟩
  | .hbm, ⟨3, _⟩ => ⟨S4096x1x1x1, .f32⟩
  | .hbm, ⟨4, _⟩ => ⟨S4096, .f32⟩
  | .hbm, ⟨5, _⟩ => ⟨S16x4096, .f32⟩
  | .hbm, ⟨6, _⟩ => ⟨S4096x16, .f32⟩
  | .hbm, ⟨7, _⟩ => ⟨S1x256x1x8, .f32⟩
  | .hbm, ⟨8, _⟩ => ⟨S256x1x8, .f32⟩
  | .hbm, ⟨9, _⟩ => ⟨S4096x512x1, .i32⟩
  | .hbm, ⟨10, _⟩ => ⟨S4096x512, .i32⟩
  | .hbm, ⟨11, _⟩ => ⟨S_, .i32⟩
  | .hbm, ⟨12, _⟩ => ⟨S4096x512, .i32⟩
  | .hbm, ⟨13, _⟩ => ⟨S4096x512, .i1⟩
  | .hbm, ⟨14, _⟩ => ⟨S_, .i32⟩
  | .hbm, ⟨15, _⟩ => ⟨S4096x512, .i32⟩
  | .hbm, ⟨16, _⟩ => ⟨S4096x512, .i32⟩
  | .hbm, ⟨17, _⟩ => ⟨S4096x512, .i32⟩
  | .hbm, ⟨18, _⟩ => ⟨S4096x512x1, .i32⟩
  | .hbm, ⟨19, _⟩ => ⟨S1, .i32⟩
  | .hbm, ⟨20, _⟩ => ⟨S_, .i32⟩
  | .hbm, ⟨21, _⟩ => ⟨S4096x512x1, .i32⟩
  | .hbm, ⟨22, _⟩ => ⟨S4096x512x1, .i1⟩
  | .hbm, ⟨23, _⟩ => ⟨S1x1x1, .i32⟩
  | .hbm, ⟨24, _⟩ => ⟨S4096x512x1, .i32⟩
  | .hbm, ⟨25, _⟩ => ⟨S4096x512x1, .i1⟩
  | .hbm, ⟨26, _⟩ => ⟨S4096x512x1, .i1⟩
  | .hbm, ⟨27, _⟩ => ⟨S_, .i1⟩
  | .hbm, ⟨28, _⟩ => ⟨S4096x512, .i1⟩
  | .hbm, ⟨29, _⟩ => ⟨S4096x512x1x8, .f32⟩
  | .hbm, ⟨30, _⟩ => ⟨S4096x512x1x8, .i1⟩
  | .hbm, ⟨31, _⟩ => ⟨S_, .f32⟩
  | .hbm, ⟨32, _⟩ => ⟨S4096x512x1x8, .f32⟩
  | .hbm, ⟨33, _⟩ => ⟨S4096x512x1x8, .f32⟩
  | .hbm, ⟨34, _⟩ => ⟨S1x256x1x8, .f32⟩
  | .hbm, ⟨35, _⟩ => ⟨S256x1x8, .f32⟩
  | .hbm, ⟨36, _⟩ => ⟨S4096x512x1, .i32⟩
  | .hbm, ⟨37, _⟩ => ⟨S4096x512, .i32⟩
  | .hbm, ⟨38, _⟩ => ⟨S_, .i32⟩
  | .hbm, ⟨39, _⟩ => ⟨S4096x512, .i32⟩
  | .hbm, ⟨40, _⟩ => ⟨S4096x512, .i1⟩
  | .hbm, ⟨41, _⟩ => ⟨S_, .i32⟩
  | .hbm, ⟨42, _⟩ => ⟨S4096x512, .i32⟩
  | .hbm, ⟨43, _⟩ => ⟨S4096x512, .i32⟩
  | .hbm, ⟨44, _⟩ => ⟨S4096x512, .i32⟩
  | .hbm, ⟨45, _⟩ => ⟨S4096x512x1, .i32⟩
  | .hbm, ⟨46, _⟩ => ⟨S1, .i32⟩
  | .hbm, ⟨47, _⟩ => ⟨S_, .i32⟩
  | .hbm, ⟨48, _⟩ => ⟨S4096x512x1, .i32⟩
  | .hbm, ⟨49, _⟩ => ⟨S4096x512x1, .i1⟩
  | .hbm, ⟨50, _⟩ => ⟨S1x1x1, .i32⟩
  | .hbm, ⟨51, _⟩ => ⟨S4096x512x1, .i32⟩
  | .hbm, ⟨52, _⟩ => ⟨S4096x512x1, .i1⟩
  | .hbm, ⟨53, _⟩ => ⟨S4096x512x1, .i1⟩
  | .hbm, ⟨54, _⟩ => ⟨S_, .i1⟩
  | .hbm, ⟨55, _⟩ => ⟨S4096x512, .i1⟩
  | .hbm, ⟨56, _⟩ => ⟨S4096x512x1x8, .f32⟩
  | .hbm, ⟨57, _⟩ => ⟨S4096x512x1x8, .i1⟩
  | .hbm, ⟨58, _⟩ => ⟨S_, .f32⟩
  | .hbm, ⟨59, _⟩ => ⟨S4096x512x1x8, .f32⟩
  | .hbm, ⟨60, _⟩ => ⟨S4096x512x1x8, .f32⟩
  | .hbm, ⟨61, _⟩ => ⟨S4096x512x1x8, .f32⟩
  | .hbm, ⟨62, _⟩ => ⟨S4096x512x1x8, .f32⟩
  | .hbm, ⟨63, _⟩ => ⟨S4096x512x1x8, .f32⟩
  | .hbm, ⟨64, _⟩ => ⟨S4096x1x512x8, .f32⟩
  | .hbm, ⟨65, _⟩ => ⟨S4096x4096, .f32⟩
  | .hbm, ⟨66, _⟩ => ⟨S4x2048x4096, .f32⟩
  | .hbm, ⟨67, _⟩ => ⟨S1x1x4096, .f32⟩
  | .hbm, ⟨68, _⟩ => ⟨S4x2048x4096, .f32⟩
  | .hbm, ⟨69, _⟩ => ⟨S4x2048x4096, .f32⟩
  | .hbm, ⟨70, _⟩ => ⟨S4x2048x16, .f32⟩
  | .hbm, ⟨71, _⟩ => ⟨S4x2048x4096, .f32⟩
  | .hbm, ⟨72, _⟩ => ⟨S_, .f32⟩
  | .hbm, ⟨73, _⟩ => ⟨S4x2048x4096, .f32⟩
  | .hbm, ⟨74, _⟩ => ⟨S4x2048x4096, .f32⟩
  | .hbm, ⟨75, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩

abbrev nD : Nat := 1
abbrev τ : Topo := Topo.v7x

variable {F : FTy → Type} [FloatOps F]

class Facts₀ : Prop where
  slices_S2x256x1x8_S1x256x1x8_0_0_0_0 : S2x256x1x8.Slices ![0, 0, 0, 0] S1x256x1x8
  shapeCasts_S1x256x1x8_S256x1x8 : S1x256x1x8.ShapeCasts S256x1x8
  slices_S4096x512x2_S4096x512x1_0_0_0 : S4096x512x2.Slices ![0, 0, 0] S4096x512x1
  shapeCasts_S4096x512x1_S4096x512 : S4096x512x1.ShapeCasts S4096x512
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x1 : S_.BroadcastsInDim S4096x512x1 (![] : Fin 0 → Fin S4096x512x1.rank)
  bcast_S1_S1x1x1_2 : S1.BroadcastsInDim S1x1x1 (![2] : Fin 1 → Fin S1x1x1.rank)
  bcast_S1x1x1_S4096x512x1_0_1_2 : S1x1x1.BroadcastsInDim S4096x512x1 (![0, 1, 2] : Fin 3 → Fin S4096x512x1.rank)
  reducesTo_S4096x512x1_S4096x512_d2 : S4096x512x1.ReducesTo [2] S4096x512
  h_S_ : 0 < S_.numel
  bcast_S4096x512_S4096x512x1x8_0_1 : S4096x512.BroadcastsInDim S4096x512x1x8 (![0, 1] : Fin 2 → Fin S4096x512x1x8.rank)
  bcast_S_S4096x512x1x8 : S_.BroadcastsInDim S4096x512x1x8 (![] : Fin 0 → Fin S4096x512x1x8.rank)
  slices_S2x256x1x8_S1x256x1x8_1_0_0_0 : S2x256x1x8.Slices ![1, 0, 0, 0] S1x256x1x8
  slices_S4096x512x2_S4096x512x1_0_0_1 : S4096x512x2.Slices ![0, 0, 1] S4096x512x1
  bcast_S4096x1x1x1_S4096x512x1x8_0_1_2_3 : S4096x1x1x1.BroadcastsInDim S4096x512x1x8 (![0, 1, 2, 3] : Fin 4 → Fin S4096x512x1x8.rank)
  transposes_S4096x512x1x8_S4096x1x512x8_0_2_1_3 : S4096x512x1x8.Transposes [0, 2, 1, 3] S4096x1x512x8
  shapeCasts_S4096x1x512x8_S4096x4096 : S4096x1x512x8.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  gather_S256x1x8_S4096x512x1_S4096x512x1x8_23_0_n_n_0_2_118_wf : GatherDims.WF S256x1x8 S4096x512x1 S4096x512x1x8 [2, 3] [0] [] [0] [] 2 ![1, 1, 8]
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def gather_S256x1x8_S4096x512x1_S4096x512x1x8_23_0_n_n_0_2_118 : GatherDims S256x1x8 S4096x512x1 S4096x512x1x8 where
  offsetDims := [2, 3]
  collapsedSliceDims := [0]
  operandBatchingDims := []
  startIndicesBatchingDims := []
  startIndexMap := [0]
  indexVectorDim := 2
  sliceSizes := ![1, 1, 8]
  wf := gather_S256x1x8_S4096x512x1_S4096x512x1x8_23_0_n_n_0_2_118_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.KerPieces.lean ====
/-
  What one grid point leaves behind, as values.

  The body keeps two running sums between grid points: the 1024 × 1024 block of `x · wᵀ` and the 1024 × 16 block of
  `x · aᵀ`. At the first of the four steps along the contraction axis both are reset to zero before the step's
  product is added; at the other steps the product is added to what the step before left; at the last step the
  output block is formed from the two finished sums: the first plus the bias row, plus twice the product of the second
  with the block of `bbᵀ`.
-/
import proofs.«119632_j5781025980674_1_alg».proof.Proof.Gen.KernelIdeal.Frame
import Idealize.ShloMosaic.Lib.Pipeline.Value

noncomputable section

namespace Cert.KernelIdeal.Pieces

open Idealize.ShloMosaic Idealize.ShloMosaic.TcCoe Idealize.SL.Sem
open Cert.KernelIdeal Cert.KernelIdeal.Gen Cert.KernelIdeal.Facts₀ Cert.KernelIdeal.Facts

variable {F : FTy → Type} [FloatOps F]

/-- The zero blocks the first step stores. -/
abbrev zeroAcc : Vec F S1024x1024 .f32 := broadcast S1024x1024 (Scalar.ofBits .f32 0x00000000#32)
abbrev zeroLow : Vec F S1024x16 .f32 := broadcast S1024x16 (Scalar.ofBits .f32 0x00000000#32)

/-- One step of the main running sum: the step's block product added to what was there. -/
def accStep (acc : Vec F S1024x1024 .f32) (x : Vec F S1024x1024 .bf16) (w : Vec F S1024x1024 .bf16) : Vec F S1024x1024 .f32 :=
  addf acc (matmul dot_S1024x1024_S1024x1024_S1024x1024_1_0_0_1_n_n none x w (constant S1024x1024 .f32 0x00000000#32))

/-- One step of the low-rank running sum. -/
def lowStep (acc : Vec F S1024x16 .f32) (x : Vec F S1024x1024 .bf16) (a : Vec F S1024x16 .bf16) : Vec F S1024x16 .f32 :=
  addf acc (matmul dot_S1024x1024_S1024x16_S1024x16_1_0_0_1_n_n none x a (constant S1024x16 .f32 0x00000000#32))

/-- The output block from the two finished sums, the block of `bbᵀ` and the bias row. -/
def outBlock (acc : Vec F S1024x1024 .f32) (lo : Vec F S1024x16 .f32) (bt : Vec F S16x1024 .bf16) (bias : Vec F S1x1024 .f32) :
    Vec F S1024x1024 .f32 :=
  addf (addf acc (broadcastTo S1024x1024 bias Facts₀.broadcasts_S1x1024_S1024x1024))
    (mulf (broadcast S1024x1024 (Scalar.ofBits .f32 0x40000000#32))
      (matmul dot_S1024x16_S16x1024_S1024x1024_1_0_0_1_n_n none (truncf .bf16 lo Facts₀.bitsLt_bf16_f32) bt
        (constant S1024x1024 .f32 0x00000000#32)))

/-- Both offsets of a whole-block rectangle are zero. -/
private theorem hz : (![0, 0] : Fin 2 → Nat) = fun _ => 0 := funext fun a => by fin_cases a <;> rfl

/-- First step, main sum: the zero block, then the step's product added. -/
theorem sout_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i)
    (x0 : Vec F S1024x1024 .bf16) (x1 : Vec F S1024x1024 .bf16) (x2 : Vec F S1024x16 .bf16) (x3 : Vec F S16x1024 .bf16) (x4 : Vec F S1x1024 .f32) :
    sout0_A_0 c i arg3 harg3 arg4 harg4 arg5 harg5 arg6 harg6 arg7 harg7 arg8 harg8 arg9 harg9 arg10 harg10 hc0 hc1 x0 x1 x2 x3 x4 = accStep zeroAcc x0 x1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz, View.readCov_unit_zero (S := S1024x1024) _ hz]
  unfold k0_pay3 k0_pay1
  simp only [View.readAt_eq_ld, harg3.read_unread, harg4.read_unread, View.ld_unit_zero (S := S1024x1024) hz, shapeCast_self]
  rfl
/-- First step, low-rank sum. -/
theorem sout_A_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i)
    (x0 : Vec F S1024x1024 .bf16) (x1 : Vec F S1024x1024 .bf16) (x2 : Vec F S1024x16 .bf16) (x3 : Vec F S16x1024 .bf16) (x4 : Vec F S1x1024 .f32) :
    sout0_A_1 c i arg3 harg3 arg4 harg4 arg5 harg5 arg6 harg6 arg7 harg7 arg8 harg8 arg9 harg9 arg10 harg10 hc0 hc1 x0 x1 x2 x3 x4 = lowStep zeroLow x0 x2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz, View.readCov_unit_zero (S := S1024x16) _ hz]
  unfold k0_pay4 k0_pay2
  simp only [View.readAt_eq_ld, harg3.read_unread, harg5.read_unread, View.ld_unit_zero (S := S1024x1024) hz, View.ld_unit_zero (S := S1024x16) hz, shapeCast_self]
  rfl
/-- A middle step, main sum: the product added to what the step before left. -/
theorem sout_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = accStep xs0 x0 x1 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  unfold k0_pay3
  simp only [View.readAt_eq_ld, harg3.read_unread, harg4.read_unread, harg9.read_unread, View.ld_unit_zero (S := S1024x1024) hz, shapeCast_self]
  rfl
/-- A middle step, low-rank sum. -/
theorem sout_B_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = lowStep xs1 x0 x2 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  unfold k0_pay4
  simp only [View.readAt_eq_ld, harg3.read_unread, harg5.read_unread, harg10.read_unread, View.ld_unit_zero (S := S1024x1024) hz, View.ld_unit_zero (S := S1024x16) hz, shapeCast_self]
  rfl
/-- The last step, main sum. -/
theorem sout_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = accStep xs0 x0 x1 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  unfold k0_pay3
  simp only [View.readAt_eq_ld, harg3.read_unread, harg4.read_unread, harg9.read_unread, View.ld_unit_zero (S := S1024x1024) hz, shapeCast_self]
  rfl
/-- The last step, low-rank sum. -/
theorem sout_C_1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = lowStep xs1 x0 x2 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  unfold k0_pay4
  simp only [View.readAt_eq_ld, harg3.read_unread, harg5.read_unread, harg10.read_unread, View.ld_unit_zero (S := S1024x1024) hz, View.ld_unit_zero (S := S1024x16) hz, shapeCast_self]
  rfl
/-- The last step's output block, from the two sums as this step finishes them. -/
theorem out_C_5 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1 = outBlock (accStep xs0 x0 x1) (lowStep xs1 x0 x2) x3 x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  unfold k0_pay5 k0_pay3 k0_pay4
  simp only [View.readAt_eq_ld, harg3.read_unread, harg4.read_unread, harg5.read_unread, harg6.read_unread, harg7.read_unread, harg9.read_unread, harg10.read_unread, View.readCov_unit_zero (S := S1024x1024) _ hz, View.readCov_unit_zero (S := S1024x16) _ hz, View.ld_unit_zero (S := S1024x1024) hz, View.ld_unit_zero (S := S1024x16) hz, View.ld_unit_zero (S := S16x1024) hz, View.ld_unit_zero (S := S1x1024) hz, shapeCast_self]
  rfl

end Cert.KernelIdeal.Pieces

end
-- ==== Proof.KerSums.lean ====
/-
  The two sums the kernel carries between grid points, after each point.

  The grid is 8 × 4 × 4: point `t = 16 I + 4 J + K` works on rows `1024 I …` of the 8192-row view of `x`, on output
  features `1024 J …`, and on piece `K` of the contraction axis. Along `K = 0, 1, 2, 3` the two carried sums grow by one
  block product each: at a point divisible by 4 they are reset and receive the first product, at every other point one
  more product on top of what the point before left. The generated per-point contents are exactly this recursion
  (`carried_eq`, by induction on the point), and at `K = 3` the output block is formed from the two sums (`out_last`).
-/
import proofs.«119632_j5781025980674_1_alg».proof.Proof.Gen.KernelIdeal.Frame
import proofs.«119632_j5781025980674_1_alg».proof.Proof.KerPieces
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces

/-! ## The carried sums after each point, at any float instance -/

section
variable {F : FTy → Type} [FloatOps F]
variable (m : (ℓ : Loc nD τ sig) → Buf (Elt F) ℓ)

/-- The five input blocks of point `t`, at their literal types. -/
abbrev xb (c : Dev nD) (t : Fin cfg0.N) : Vec F S1024x1024 .bf16 := iblk m c 0 t
abbrev wb (c : Dev nD) (t : Fin cfg0.N) : Vec F S1024x1024 .bf16 := iblk m c 1 t
abbrev ab (c : Dev nD) (t : Fin cfg0.N) : Vec F S1024x16 .bf16 := iblk m c 2 t
abbrev btb (c : Dev nD) (t : Fin cfg0.N) : Vec F S16x1024 .bf16 := iblk m c 3 t
abbrev biasb (c : Dev nD) (t : Fin cfg0.N) : Vec F S1x1024 .f32 := iblk m c 4 t

/-- The generated per-case contents at the memrefs and blocks of point `t`: first step, main sum. -/
theorem A0 (c : Dev nD) (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) = accStep zeroAcc (xb m c t) (wb m c t) :=
  Pieces.sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t)
/-- First step, low-rank sum. -/
theorem A1 (c : Dev nD) (t : Fin cfg0.N) (hc0 : cond0_0 (grid0.coords t)) (hc1 : ¬cond0_1 (grid0.coords t)) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) = lowStep zeroLow (xb m c t) (ab m c t) :=
  Pieces.sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t)
/-- A middle step, main sum. -/
theorem B0 (c : Dev nD) (t : Fin cfg0.N) (hc0 : ¬cond0_0 (grid0.coords t)) (hc1 : ¬cond0_1 (grid0.coords t)) (xs0 : Vec F S1024x1024 .f32) (xs1 : Vec F S1024x16 .f32) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) xs0 xs1 = accStep xs0 (xb m c t) (wb m c t) :=
  Pieces.sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) xs0 xs1
/-- A middle step, low-rank sum. -/
theorem B1 (c : Dev nD) (t : Fin cfg0.N) (hc0 : ¬cond0_0 (grid0.coords t)) (hc1 : ¬cond0_1 (grid0.coords t)) (xs0 : Vec F S1024x1024 .f32) (xs1 : Vec F S1024x16 .f32) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) xs0 xs1 = lowStep xs1 (xb m c t) (ab m c t) :=
  Pieces.sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) xs0 xs1
/-- The last step, main sum. -/
theorem C0 (c : Dev nD) (t : Fin cfg0.N) (hc0 : ¬cond0_0 (grid0.coords t)) (hc1 : cond0_1 (grid0.coords t)) (xs0 : Vec F S1024x1024 .f32) (xs1 : Vec F S1024x16 .f32) :
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) xs0 xs1 = accStep xs0 (xb m c t) (wb m c t) :=
  Pieces.sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) xs0 xs1
/-- The last step, low-rank sum. -/
theorem C1 (c : Dev nD) (t : Fin cfg0.N) (hc0 : ¬cond0_0 (grid0.coords t)) (hc1 : cond0_1 (grid0.coords t)) (xs0 : Vec F S1024x1024 .f32) (xs1 : Vec F S1024x16 .f32) :
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) xs0 xs1 = lowStep xs1 (xb m c t) (ab m c t) :=
  Pieces.sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) xs0 xs1
/-- The last step's output block. -/
theorem C5 (c : Dev nD) (t : Fin cfg0.N) (hc0 : ¬cond0_0 (grid0.coords t)) (hc1 : cond0_1 (grid0.coords t)) (xs0 : Vec F S1024x1024 .f32) (xs1 : Vec F S1024x16 .f32) :
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) xs0 xs1 = outBlock (accStep xs0 (xb m c t) (wb m c t)) (lowStep xs1 (xb m c t) (ab m c t)) (btb m c t) (biasb m c t) :=
  Pieces.out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) xs0 xs1

/-- The two carried sums after point `n`: reset and one product at a point divisible by 4, one more product on top of
    the point before otherwise. -/
def sums (c : Dev nD) : (n : ℕ) → n < cfg0.N → Vec F S1024x1024 .f32 × Vec F S1024x16 .f32
  | 0, h => (accStep zeroAcc (xb m c ⟨0, h⟩) (wb m c ⟨0, h⟩), lowStep zeroLow (xb m c ⟨0, h⟩) (ab m c ⟨0, h⟩))
  | n + 1, h =>
    if (n + 1) % 4 = 0 then
      (accStep zeroAcc (xb m c ⟨n + 1, h⟩) (wb m c ⟨n + 1, h⟩), lowStep zeroLow (xb m c ⟨n + 1, h⟩) (ab m c ⟨n + 1, h⟩))
    else
      (accStep (sums c n (Nat.lt_of_succ_lt h)).1 (xb m c ⟨n + 1, h⟩) (wb m c ⟨n + 1, h⟩),
        lowStep (sums c n (Nat.lt_of_succ_lt h)).2 (xb m c ⟨n + 1, h⟩) (ab m c ⟨n + 1, h⟩))

theorem sums_reset (c : Dev nD) (n : ℕ) (h : n < cfg0.N) (h0 : n % 4 = 0) :
    sums m c n h = (accStep zeroAcc (xb m c ⟨n, h⟩) (wb m c ⟨n, h⟩), lowStep zeroLow (xb m c ⟨n, h⟩) (ab m c ⟨n, h⟩)) := by
  cases n with
  | zero => rfl
  | succ n => exact if_pos h0

theorem sums_step (c : Dev nD) (n : ℕ) (h : n + 1 < cfg0.N) (h0 : ¬(n + 1) % 4 = 0) :
    sums m c (n + 1) h = (accStep (sums m c n (Nat.lt_of_succ_lt h)).1 (xb m c ⟨n + 1, h⟩) (wb m c ⟨n + 1, h⟩),
      lowStep (sums m c n (Nat.lt_of_succ_lt h)).2 (xb m c ⟨n + 1, h⟩) (ab m c ⟨n + 1, h⟩)) :=
  if_neg h0

/-- What the generated per-point contents carry in the two scratch buffers IS the pair of sums. -/
theorem carried_eq (c : Dev nD) : ∀ (n : ℕ) (h : n < cfg0.N),
    (outsAt0 m c n h).2.1 = (sums m c n h).1 ∧ (outsAt0 m c n h).2.2 = (sums m c n h).2
  | 0, h => by
    rw [outsAt0_A m c ⟨0, h⟩ rfl (by show ¬(0 % 4 = 3); decide)]
    dsimp only
    exact ⟨A0 m c ⟨0, h⟩ _ _, A1 m c ⟨0, h⟩ _ _⟩
  | n + 1, h => by
    have ih := carried_eq c n (Nat.lt_of_succ_lt h)
    by_cases h0 : (n + 1) % 4 = 0
    · have h1 : ¬(n + 1) % 4 = 3 := by omega
      rw [outsAt0_A m c ⟨n + 1, h⟩ h0 h1, sums_reset m c (n + 1) h h0]
      dsimp only
      exact ⟨A0 m c ⟨n + 1, h⟩ _ _, A1 m c ⟨n + 1, h⟩ _ _⟩
    · rw [sums_step m c n h h0]
      by_cases h1 : (n + 1) % 4 = 3
      · rw [outsAt0_C m c ⟨n + 1, h⟩ h0 h1]
        dsimp only
        rw [C0, C1]
        show accStep (outsAt0 m c n _).2.1 _ _ = _ ∧ lowStep (outsAt0 m c n _).2.2 _ _ = _
        rw [ih.1, ih.2]
        exact ⟨rfl, rfl⟩
      · rw [outsAt0_B m c ⟨n + 1, h⟩ h0 h1]
        dsimp only
        rw [B0, B1]
        show accStep (outsAt0 m c n _).2.1 _ _ = _ ∧ lowStep (outsAt0 m c n _).2.2 _ _ = _
        rw [ih.1, ih.2]
        exact ⟨rfl, rfl⟩

/-- The output block a last step leaves: formed from the two sums as that step finishes them. -/
theorem out_last (c : Dev nD) (t : Fin cfg0.N) (h3 : t.val % 4 = 3) :
    (outsAt0 m c t.val t.isLt).1
      = outBlock (sums m c t.val t.isLt).1 (sums m c t.val t.isLt).2 (btb m c t) (biasb m c t) := by
  obtain ⟨n, h⟩ := t
  cases n with
  | zero => exact absurd h3 (by show ¬(0 % 4 = 3); decide)
  | succ n =>
    have h0 : ¬(n + 1) % 4 = 0 := by dsimp only at h3; omega
    have ih := carried_eq m c n (Nat.lt_of_succ_lt h)
    rw [outsAt0_C m c ⟨n + 1, h⟩ h0 h3]
    dsimp only
    rw [C5, sums_step m c n h h0]
    show outBlock (accStep (outsAt0 m c n _).2.1 _ _) (lowStep (outsAt0 m c n _).2.2 _ _) _ _ = _
    rw [ih.1, ih.2]

end

end Cert.KernelIdeal.Blocks

end
-- ==== Proof.KerDequant.lean ====
/-
  The weight matrix both programs build before anything else.

  A code `codes[o, g, c]` selects row `codes[o, g, c]` of codebook `c` (`jnp.take` along axis 0: a negative code is
  first moved up by the table's 256 rows, and a code still outside `0 … 255` yields the fill value instead of a
  row); the two selected rows of 8 numbers are added, scaled by `scales[o]`, and laid out as positions
  `8 g … 8 g + 7` of row `o` of a 4096 × 4096 matrix. Nothing below ever opens this chain: the two programs apply the
  same operations to the same arguments, and only that is used.
-/
import proofs.«119632_j5781025980674_1_alg».proof.Proof.Gen.KernelIdeal

noncomputable section

namespace Cert.KernelIdeal.Dq

open Idealize.ShloMosaic Idealize.SL.Sem
open Cert.KernelIdeal Cert.KernelIdeal.Facts₀ Cert.KernelIdeal.Facts

variable {F : FTy → Type} [FloatOps F]

/-- `jnp.take(table, idx, axis=0)`: per code the table's row, or the fill value where the code is out of range. -/
def take (table : FVec F S256x1x8 .f32) (idx : IVec S4096x512 32) : FVec F S4096x512x1x8 .f32 :=
  let wrapped : IVec S4096x512 32 :=
    select (cmpi .slt idx (broadcastInDim S4096x512 ![] bcast_S_S4096x512 (constantI S_ 32 0#32)))
      (addi idx (broadcastInDim S4096x512 ![] bcast_S_S4096x512 (constantI S_ 32 256#32))) idx
  let pos : IVec S4096x512x1 32 := broadcastInDim S4096x512x1 ![0, 1] bcast_S4096x512_S4096x512x1_0_1 wrapped
  let inRange : IVec S4096x512 1 :=
    Host.reduce IntOp.andi
      (andi (cmpi .sge pos (broadcastInDim S4096x512x1 ![] bcast_S_S4096x512x1 (constantI S_ 32 0#32)))
        (cmpi .sle pos (broadcastInDim S4096x512x1 ![0, 1, 2] bcast_S1x1x1_S4096x512x1_0_1_2
          (broadcastInDim S1x1x1 ![2] bcast_S1_S1x1x1_2 (constantI S1 32 255#32)))))
      (constantI S_ 1 1#1) reducesTo_S4096x512x1_S4096x512_d2 h_S_
  select (broadcastInDim S4096x512x1x8 ![0, 1] bcast_S4096x512_S4096x512x1x8_0_1 inRange)
    (Host.gather gather_S256x1x8_S4096x512x1_S4096x512x1x8_23_0_n_n_0_2_118 table pos)
    (broadcastInDim S4096x512x1x8 ![] bcast_S_S4096x512x1x8 (constant (F := F) S_ .f32 0x7FC00000#32))

/-- Codebook `c`'s table: its 256 rows of 8 numbers. -/
def table0 (cb : FVec F S2x256x1x8 .f32) : FVec F S256x1x8 .f32 :=
  shapeCast S256x1x8 (extractStridedSlice S1x256x1x8 ![0, 0, 0, 0] cb slices_S2x256x1x8_S1x256x1x8_0_0_0_0)
    shapeCasts_S1x256x1x8_S256x1x8
def table1 (cb : FVec F S2x256x1x8 .f32) : FVec F S256x1x8 .f32 :=
  shapeCast S256x1x8 (extractStridedSlice S1x256x1x8 ![1, 0, 0, 0] cb slices_S2x256x1x8_S1x256x1x8_1_0_0_0)
    shapeCasts_S1x256x1x8_S256x1x8

/-- The codes that index codebook `c`. -/
def codes0 (codes : IVec S4096x512x2 32) : IVec S4096x512 32 :=
  shapeCast S4096x512 (extractStridedSlice S4096x512x1 ![0, 0, 0] codes slices_S4096x512x2_S4096x512x1_0_0_0)
    shapeCasts_S4096x512x1_S4096x512
def codes1 (codes : IVec S4096x512x2 32) : IVec S4096x512 32 :=
  shapeCast S4096x512 (extractStridedSlice S4096x512x1 ![0, 0, 1] codes slices_S4096x512x2_S4096x512x1_0_0_1)
    shapeCasts_S4096x512x1_S4096x512

/-- The dequantised weight: the two selected rows added, scaled per output feature, laid out as a 4096 × 4096 matrix. -/
def dequant (codes : IVec S4096x512x2 32) (cb : FVec F S2x256x1x8 .f32) (scales : FVec F S4096x1x1x1 .f32) :
    FVec F S4096x4096 .f32 :=
  shapeCast S4096x4096
    (transpose S4096x1x512x8 [0, 2, 1, 3]
      (mulf (addf (take (table0 cb) (codes0 codes)) (take (table1 cb) (codes1 codes)))
        (broadcastInDim S4096x512x1x8 ![0, 1, 2, 3] bcast_S4096x1x1x1_S4096x512x1x8_0_1_2_3 scales))
      transposes_S4096x512x1x8_S4096x1x512x8_0_2_1_3)
    shapeCasts_S4096x1x512x8_S4096x4096

end Cert.KernelIdeal.Dq

end
-- ==== Proof.KerHostIn.lean ====
/-
  What the five arrays the kernel's windows read hold when the region is entered, as functions of the arguments.

  `x` is viewed as 8192 rows of 4096 features (row `2048 b + s` is token `(b, s)`); the dequantised weight and the two
  low-rank factors are transposed; the bias becomes one row. The changes of float format in between are the identity
  on the extended reals.
-/
import proofs.«119632_j5781025980674_1_alg».proof.Proof.Gen.KernelIdeal.Frame
import proofs.«119632_j5781025980674_1_alg».proof.Proof.KerDequant
import Idealize.ShloMosaic.Lib.ValueIdx
import Idealize.ShloMosaic.Lib.Pipeline.Value
import Idealize.ShloMosaic.Lib.StableHlo.Run

noncomputable section

namespace Cert.KernelIdeal.HostIn

open Idealize.ShloMosaic Idealize.ShloMosaic.TcCoe Idealize.SL.Sem Idealize.ShloMosaic.ValueIdx
open Cert.KernelIdeal Cert.KernelIdeal.Gen Cert.KernelIdeal.Facts₀ Cert.KernelIdeal.Facts

/-! ## The arrays as terms of the arguments, at any float instance -/

section
variable {F : FTy → Type} [FloatOps F]
variable (m : (ℓ : Loc nD τ sig) → Buf (Elt F) ℓ)

/-- Transport along a type equation and back is the identity. -/
theorem cast_cast_cancel {α β : Sort _} (h : α = β) (h' : β = α) (v : β) : cast h (cast h' v) = v := by
  subst h; rfl

/-! ### The five stretches of operations before the region, each from any contents `W`

Only the buffers the weight's chain passes through are followed: the two tables and the two code arrays (first and
third stretch), the two selections of rows (second and fourth), and the fifth stretch's arithmetic and layout. A
buffer a stretch does not write keeps its contents. -/

section Stretches
variable (W : Valuation τ sig (Elt F))

/-- First stretch: codebook 0's table. -/
theorem first_v1 : StableHlo.after hostOps0 W (Proc.devRef .tc main_v1) = Dq.table0 (W (Proc.devRef .tc main_arg2)) := by
  dsimp only [hostOps0]; after_results; rfl
/-- First stretch: the codes into codebook 0. -/
theorem first_v3 : StableHlo.after hostOps0 W (Proc.devRef .tc main_v3) = Dq.codes0 (W (Proc.devRef .tc main_arg1)) := by
  dsimp only [hostOps0]; after_results; rfl
/-- The first stretch does not write the codes. -/
theorem first_arg1 : StableHlo.after hostOps0 W (Proc.devRef .tc main_arg1) = W (Proc.devRef .tc main_arg1) := by dsimp only [hostOps0]; after_results
/-- The first stretch does not write the codebooks. -/
theorem first_arg2 : StableHlo.after hostOps0 W (Proc.devRef .tc main_arg2) = W (Proc.devRef .tc main_arg2) := by dsimp only [hostOps0]; after_results
/-- The first stretch does not write the scales. -/
theorem first_arg3 : StableHlo.after hostOps0 W (Proc.devRef .tc main_arg3) = W (Proc.devRef .tc main_arg3) := by dsimp only [hostOps0]; after_results

/-- Second stretch: the rows of table 0 the codes select. Its operations carry their buffers' types, so each
    result is moved to its buffer's type and back: the round trips cancel, and the last move is along an equation
    between two spellings of one type. -/
theorem second_v4 : StableHlo.after hostOps0_1 W (Proc.devRef .tc main_v4)
    = Dq.take (W (Proc.devRef .tc main_v1)) (W (Proc.devRef .tc main_v3)) := by
  dsimp only [hostOps0_1]; after_results_simp
  simp only [StableHlo.TRef.ofBuf, StableHlo.TRef.toBuf, cast_cast_cancel]
  refine (cast_eq _ _).trans ?_
  rfl
/-- The second stretch does not write the codes. -/
theorem second_arg1 : StableHlo.after hostOps0_1 W (Proc.devRef .tc main_arg1) = W (Proc.devRef .tc main_arg1) := by dsimp only [hostOps0_1]; after_results
/-- The second stretch does not write the codebooks. -/
theorem second_arg2 : StableHlo.after hostOps0_1 W (Proc.devRef .tc main_arg2) = W (Proc.devRef .tc main_arg2) := by dsimp only [hostOps0_1]; after_results
/-- The second stretch does not write the scales. -/
theorem second_arg3 : StableHlo.after hostOps0_1 W (Proc.devRef .tc main_arg3) = W (Proc.devRef .tc main_arg3) := by dsimp only [hostOps0_1]; after_results

/-- Third stretch: codebook 1's table. -/
theorem third_v6 : StableHlo.after hostOps0_2 W (Proc.devRef .tc main_v6) = Dq.table1 (W (Proc.devRef .tc main_arg2)) := by
  dsimp only [hostOps0_2]; after_results; rfl
/-- Third stretch: the codes into codebook 1. -/
theorem third_v8 : StableHlo.after hostOps0_2 W (Proc.devRef .tc main_v8) = Dq.codes1 (W (Proc.devRef .tc main_arg1)) := by
  dsimp only [hostOps0_2]; after_results; rfl
/-- The third stretch does not write the first selection. -/
theorem third_v4 : StableHlo.after hostOps0_2 W (Proc.devRef .tc main_v4) = W (Proc.devRef .tc main_v4) := by dsimp only [hostOps0_2]; after_results
/-- The third stretch does not write the scales. -/
theorem third_arg3 : StableHlo.after hostOps0_2 W (Proc.devRef .tc main_arg3) = W (Proc.devRef .tc main_arg3) := by dsimp only [hostOps0_2]; after_results

/-- Fourth stretch: the rows of table 1 the codes select (as the second stretch). -/
theorem fourth_v9 : StableHlo.after hostOps0_3 W (Proc.devRef .tc main_v9)
    = Dq.take (W (Proc.devRef .tc main_v6)) (W (Proc.devRef .tc main_v8)) := by
  dsimp only [hostOps0_3]; after_results_simp
  simp only [StableHlo.TRef.ofBuf, StableHlo.TRef.toBuf, cast_cast_cancel]
  refine (cast_eq _ _).trans ?_
  rfl
/-- The fourth stretch does not write the first selection. -/
theorem fourth_v4 : StableHlo.after hostOps0_3 W (Proc.devRef .tc main_v4) = W (Proc.devRef .tc main_v4) := by dsimp only [hostOps0_3]; after_results
/-- The fourth stretch does not write the scales. -/
theorem fourth_arg3 : StableHlo.after hostOps0_3 W (Proc.devRef .tc main_arg3) = W (Proc.devRef .tc main_arg3) := by dsimp only [hostOps0_3]; after_results

/-- Fifth stretch: the two selections added, scaled, laid out as a matrix, transposed and narrowed. -/
theorem fifth_v16 : StableHlo.after hostOps0_4 W (Proc.devRef .tc main_v16)
    = truncf .bf16 (transpose S4096x4096 [1, 0]
        (shapeCast S4096x4096
          (transpose S4096x1x512x8 [0, 2, 1, 3]
            (mulf (addf (W (Proc.devRef .tc main_v4)) (W (Proc.devRef .tc main_v9)))
              (broadcastInDim S4096x512x1x8 ![0, 1, 2, 3] Facts₀.bcast_S4096x1x1x1_S4096x512x1x8_0_1_2_3 (W (Proc.devRef .tc main_arg3))))
            Facts₀.transposes_S4096x512x1x8_S4096x1x512x8_0_2_1_3)
          Facts₀.shapeCasts_S4096x1x512x8_S4096x4096)
        Facts₀.transposes_S4096x4096_S4096x4096_1_0) Facts₀.bitsLt_bf16_f32 := by
  dsimp only [hostOps0_4]; after_results; rfl

end Stretches

theorem V_x2 (c : Dev nD) : V m c main_v18
    = truncf .bf16 (shapeCast S8192x4096 (m ((c : Thread nD τ).loc main_arg0)) Facts₀.shapeCasts_S4x2048x4096_S8192x4096) Facts₀.bitsLt_bf16_f32 := by
  dsimp only [V, V0]
  simp only [hostOps0, hostOps0_1, hostOps0_2, hostOps0_3, hostOps0_4, List.flatten_cons, List.flatten_nil, List.append_nil, List.cons_append, List.nil_append]
  after_results
  rfl

theorem V_wt (c : Dev nD) : V m c main_v16
    = truncf .bf16 (transpose S4096x4096 [1, 0]
        (Dq.dequant (m ((c : Thread nD τ).loc main_arg1)) (m ((c : Thread nD τ).loc main_arg2)) (m ((c : Thread nD τ).loc main_arg3)))
        Facts₀.transposes_S4096x4096_S4096x4096_1_0) Facts₀.bitsLt_bf16_f32 := by
  -- the five stretches run one after the other; then each is read by its lemma, last stretch first
  show StableHlo.after (List.flatten [hostOps0, hostOps0_1, hostOps0_2, hostOps0_3, hostOps0_4]) (fun b => m (c, b)) (Proc.devRef .tc main_v16) = _
  simp only [List.flatten_cons, List.flatten_nil, List.append_nil, StableHlo.after_append]
  rw [fifth_v16, fourth_v9, fourth_v4, fourth_arg3, third_v6, third_v8, third_v4, third_arg3,
    second_v4, second_arg1, second_arg2, second_arg3, first_v1, first_v3, first_arg1, first_arg2, first_arg3]
  rfl

theorem V_at (c : Dev nD) : V m c main_v20
    = truncf .bf16 (transpose S4096x16 [1, 0] (m ((c : Thread nD τ).loc main_arg5)) Facts₀.transposes_S16x4096_S4096x16_1_0) Facts₀.bitsLt_bf16_f32 := by
  dsimp only [V, V0]
  simp only [hostOps0, hostOps0_1, hostOps0_2, hostOps0_3, hostOps0_4, List.flatten_cons, List.flatten_nil, List.append_nil, List.cons_append, List.nil_append]
  after_results

theorem V_bt (c : Dev nD) : V m c main_v22
    = truncf .bf16 (transpose S16x4096 [1, 0] (m ((c : Thread nD τ).loc main_arg6)) Facts₀.transposes_S4096x16_S16x4096_1_0) Facts₀.bitsLt_bf16_f32 := by
  dsimp only [V, V0]
  simp only [hostOps0, hostOps0_1, hostOps0_2, hostOps0_3, hostOps0_4, List.flatten_cons, List.flatten_nil, List.append_nil, List.cons_append, List.nil_append]
  after_results

theorem V_bias2 (c : Dev nD) : V m c main_v23 = shapeCast S1x4096 (m ((c : Thread nD τ).loc main_arg4)) Facts₀.shapeCasts_S4096_S1x4096 := by
  dsimp only [V, V0]
  simp only [hostOps0, hostOps0_1, hostOps0_2, hostOps0_3, hostOps0_4, List.flatten_cons, List.flatten_nil, List.append_nil, List.cons_append, List.nil_append]
  after_results
  rfl

end

/-! ## The same read at an entry, over the extended reals -/

section
variable (m : (ℓ : Loc nD τ sig) → Buf (Elt Ideal) ℓ)

/-- The token of row `r` of the 8192 × 4096 view: batch `r / 2048`, position `r % 2048`. -/
def rowB (r : Fin 8192) : Fin 4 := ⟨r.val / 2048, by have := r.isLt; omega⟩
def rowS (r : Fin 8192) : Fin 2048 := ⟨r.val % 2048, Nat.mod_lt _ (by norm_num)⟩

/-! ### The layout operations at an entry, over any array

Each array is a variable here, so that nothing below opens the weight's chain. -/

/-- A matrix transposed and then narrowed reads, at `(j, i)`, the matrix at `(i, j)`. -/
theorem truncf_transpose_apply {a b : ℕ} (D : FVec Ideal ⟨2, ![a, b]⟩ .f32)
    (h : (⟨2, ![a, b]⟩ : Shape).Transposes [1, 0] ⟨2, ![b, a]⟩) (hb : FTy.bits .bf16 < FTy.bits .f32) (j : Fin b) (i : Fin a) :
    (truncf .bf16 (transpose ⟨2, ![b, a]⟩ [1, 0] D h) hb : FVec Ideal ⟨2, ![b, a]⟩ .bf16) (ix2 j i) = D (ix2 i j) :=
  (ValueIdx.truncf_apply (ψ := .bf16) (transpose ⟨2, ![b, a]⟩ [1, 0] D h) hb (ix2 j i)).trans
    (transpose_apply [1, 0] D h (ix2 j i) (ix2 i j) fun ax => match ax with | ⟨0, _⟩ => rfl | ⟨1, _⟩ => rfl)

/-- The 4 × 2048 × 4096 array viewed as 8192 rows and then narrowed reads, at `(r, k)`, token `(r / 2048, r % 2048)`'s
    feature `k`: the two entries have the same row-major position, `2048 · (r / 2048) + r % 2048 = r`. -/
theorem truncf_rows_apply (X : FVec Ideal S4x2048x4096 .f32) (h : S4x2048x4096.ShapeCasts S8192x4096)
    (hb : FTy.bits .bf16 < FTy.bits .f32) (r : Fin 8192) (k : Fin 4096) :
    (truncf .bf16 (shapeCast S8192x4096 X h) hb : FVec Ideal S8192x4096 .bf16) (ix2 r k) = X (ix3 (rowB r) (rowS r) k) :=
  (ValueIdx.truncf_apply (ψ := .bf16) (shapeCast S8192x4096 X h) hb (ix2 r k)).trans
    (shapeCast_apply X h (ix2 r k) (ix3 (rowB r) (rowS r) k) (by
      rw [Shape.rowMajor_val_three, Shape.rowMajor_val_two]
      show (r.val / 2048 * 2048 + r.val % 2048) * 4096 + k.val = r.val * 4096 + k.val
      omega))

/-- A vector of 4096 viewed as one row reads, at `(z, o)`, the vector at `o`. -/
theorem row_apply (X : FVec Ideal S4096 .f32) (h : S4096.ShapeCasts S1x4096) (z : Fin 1) (o : Fin 4096) :
    shapeCast S1x4096 X h (ix2 z o) = X (ix1 o) :=
  shapeCast_apply X h (ix2 z o) (ix1 o) (by
    have hz : z.val = 0 := by omega
    rw [Shape.rowMajor_val_one, Shape.rowMajor_val_two]
    show o.val = z.val * 4096 + o.val
    omega)

theorem x2_apply (c : Dev nD) (r : Fin 8192) (k : Fin 4096) :
    (V m c main_v18 : S8192x4096.Idx → EReal) (ix2 r k) = (m ((c : Thread nD τ).loc main_arg0)) (ix3 (rowB r) (rowS r) k) :=
  (congrFun (V_x2 m c) (ix2 r k)).trans (truncf_rows_apply (m ((c : Thread nD τ).loc main_arg0)) _ _ r k)

theorem wt_apply (c : Dev nD) (k : Fin 4096) (o : Fin 4096) :
    (V m c main_v16 : S4096x4096.Idx → EReal) (ix2 k o)
      = Dq.dequant (F := Ideal) (m ((c : Thread nD τ).loc main_arg1)) (m ((c : Thread nD τ).loc main_arg2)) (m ((c : Thread nD τ).loc main_arg3)) (ix2 o k) :=
  (congrFun (V_wt m c) (ix2 k o)).trans
    (truncf_transpose_apply
      (Dq.dequant (F := Ideal) (m ((c : Thread nD τ).loc main_arg1)) (m ((c : Thread nD τ).loc main_arg2)) (m ((c : Thread nD τ).loc main_arg3)))
      Facts₀.transposes_S4096x4096_S4096x4096_1_0 Facts₀.bitsLt_bf16_f32 k o)

theorem at_apply (c : Dev nD) (k : Fin 4096) (r : Fin 16) :
    (V m c main_v20 : S4096x16.Idx → EReal) (ix2 k r) = (m ((c : Thread nD τ).loc main_arg5)) (ix2 r k) :=
  (congrFun (V_at m c) (ix2 k r)).trans
    (truncf_transpose_apply (m ((c : Thread nD τ).loc main_arg5)) Facts₀.transposes_S16x4096_S4096x16_1_0 Facts₀.bitsLt_bf16_f32 k r)

theorem bt_apply (c : Dev nD) (r : Fin 16) (o : Fin 4096) :
    (V m c main_v22 : S16x4096.Idx → EReal) (ix2 r o) = (m ((c : Thread nD τ).loc main_arg6)) (ix2 o r) :=
  (congrFun (V_bt m c) (ix2 r o)).trans
    (truncf_transpose_apply (m ((c : Thread nD τ).loc main_arg6)) Facts₀.transposes_S4096x16_S16x4096_1_0 Facts₀.bitsLt_bf16_f32 r o)

theorem bias2_apply (c : Dev nD) (z : Fin 1) (o : Fin 4096) :
    (V m c main_v23 : S1x4096.Idx → EReal) (ix2 z o) = (m ((c : Thread nD τ).loc main_arg4)) (ix1 o) :=
  (congrFun (V_bias2 m c) (ix2 z o)).trans (row_apply (m ((c : Thread nD τ).loc main_arg4)) Facts₀.shapeCasts_S4096_S1x4096 z o)

end

end Cert.KernelIdeal.HostIn

end
-- ==== Proof.Spec.lean ====
/-
  The common value of the two programs, stated once over the extended reals.

  A token `(b, s)` of `x : f32[4, 2048, 4096]` is sent to output feature `o` by
    `((∑ i, x[b,s,i] · w[o,i]) + bias[o]) + 2 · ∑ r, (∑ i, x[b,s,i] · a[r,i]) · bb[o,r]`,
  `w : f32[4096, 4096]` the dequantised weight, `a : f32[16, 4096]` and `bb : f32[4096, 16]` the two low-rank
  factors. The kernel reaches the two inner sums over `i` in four consecutive pieces of 1024 positions added one after
  the other to a zero; over the extended reals addition is commutative and associative, so the four partial sums
  added in order are the whole sum (`sum_kpos`, `chain4`). No finiteness is needed anywhere.
-/
import Idealize.ShloMosaic.Lib.ValueIdx
import Idealize.ShloMosaic.PureOps.Ideal.Laws

noncomputable section

namespace Cert.Spec

open Idealize.ShloMosaic Idealize.ShloMosaic.ValueIdx

abbrev SX : Shape := ⟨3, ![4, 2048, 4096]⟩
abbrev SW : Shape := ⟨2, ![4096, 4096]⟩
abbrev SBias : Shape := ⟨1, ![4096]⟩
abbrev SA : Shape := ⟨2, ![16, 4096]⟩
abbrev SB : Shape := ⟨2, ![4096, 16]⟩

/-- The linear map's entry: token `(b, s)` against row `o` of the weight. -/
def base (X : FVec Ideal SX .f32) (W : FVec Ideal SW .f32) (b : Fin 4) (s : Fin 2048) (o : Fin 4096) : EReal :=
  ∑ i : Fin 4096, (X (ix3 b s i) * W (ix2 o i) : EReal)

/-- The low-rank projection of token `(b, s)`: its component `r`. -/
def low (X : FVec Ideal SX .f32) (A : FVec Ideal SA .f32) (b : Fin 4) (s : Fin 2048) (r : Fin 16) : EReal :=
  ∑ i : Fin 4096, (X (ix3 b s i) * A (ix2 r i) : EReal)

/-- The low-rank update's entry: the projection expanded by row `o` of the second factor. -/
def lora (X : FVec Ideal SX .f32) (A : FVec Ideal SA .f32) (B : FVec Ideal SB .f32) (b : Fin 4) (s : Fin 2048)
    (o : Fin 4096) : EReal :=
  ∑ r : Fin 16, (low X A b s r * B (ix2 o r) : EReal)

/-- The result's entry `(b, s, o)`; the scale is the f32 word of 2.0, the same word in both programs. -/
def outAt (X : FVec Ideal SX .f32) (W : FVec Ideal SW .f32) (bias : FVec Ideal SBias .f32) (A : FVec Ideal SA .f32)
    (B : FVec Ideal SB .f32) (b : Fin 4) (s : Fin 2048) (o : Fin 4096) : EReal :=
  (base X W b s o + bias (ix1 o)) + Ideal.ofBits .f32 0x40000000#32 * lora X A B b s o

/-- The result array. -/
def out (X : FVec Ideal SX .f32) (W : FVec Ideal SW .f32) (bias : FVec Ideal SBias .f32) (A : FVec Ideal SA .f32)
    (B : FVec Ideal SB .f32) : FVec Ideal SX .f32 :=
  fun j => outAt X W bias A B (j 0) (j 1) (j 2)

theorem out_apply (X : FVec Ideal SX .f32) (W : FVec Ideal SW .f32) (bias : FVec Ideal SBias .f32)
    (A : FVec Ideal SA .f32) (B : FVec Ideal SB .f32) (b : Fin 4) (s : Fin 2048) (o : Fin 4096) :
    out X W bias A B (ix3 b s o) = outAt X W bias A B b s o := rfl

/-! ## The contraction axis in four pieces of 1024 -/

/-- Position `kk` of piece `kb` of the contraction axis. -/
def kpos (kb : Fin 4) (kk : Fin 1024) : Fin 4096 :=
  ⟨kb.val * 1024 + kk.val, by have := kb.isLt; have := kk.isLt; omega⟩

theorem kpos_val (kb : Fin 4) (kk : Fin 1024) : (kpos kb kk).val = kb.val * 1024 + kk.val := rfl

/-- Piece and offset are the quotient and the remainder by 1024. -/
def kposEquiv : Fin 4 × Fin 1024 ≃ Fin 4096 where
  toFun x := kpos x.1 x.2
  invFun i := (⟨i.val / 1024, by have := i.isLt; omega⟩, ⟨i.val % 1024, Nat.mod_lt _ (by norm_num)⟩)
  left_inv x := by
    obtain ⟨kb, kk⟩ := x
    have := kk.isLt
    refine Prod.ext (Fin.ext ?_) (Fin.ext ?_)
    · show (kb.val * 1024 + kk.val) / 1024 = kb.val
      omega
    · show (kb.val * 1024 + kk.val) % 1024 = kk.val
      omega
  right_inv i := Fin.ext (by show i.val / 1024 * 1024 + i.val % 1024 = i.val; omega)

/-- A sum over the 4096 positions is the sum over the pieces of the sums inside each piece. -/
theorem sum_kpos {M : Type*} [AddCommMonoid M] (f : Fin 4096 → M) :
    ∑ i : Fin 4096, f i = ∑ kb : Fin 4, ∑ kk : Fin 1024, f (kpos kb kk) := by
  rw [← Fintype.sum_prod_type']
  exact (Fintype.sum_equiv kposEquiv (fun x => f (kpos x.1 x.2)) f fun _ => rfl).symm

/-- Four partial sums added one after the other to a zero are their sum. -/
theorem chain4 {M : Type*} [AddCommMonoid M] (s : Fin 4 → M) : (((0 + s 0) + s 1) + s 2) + s 3 = ∑ kb : Fin 4, s kb := by
  rw [Fin.sum_univ_four, zero_add]

end Cert.Spec

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KerEntry.lean ====
/-
  The kernel's step functions and input blocks read at an entry, over the extended reals.

  One step adds to entry `(p, q)` the sum over the piece's 1024 positions of the products of the two blocks' entries;
  a block's entry is an entry of the array it was cut from, at the block's offset: rows of the 8192-row view of `x` by
  `t / 16`, output features by `t / 4 % 4`, the piece of the contraction axis by `t % 4`.
-/
import proofs.«119632_j5781025980674_1_alg».proof.Proof.KerSums
import proofs.«119632_j5781025980674_1_alg».proof.Proof.KerHostIn
import proofs.«119632_j5781025980674_1_alg».proof.Proof.Spec
import proofs.«119632_j5781025980674_1_alg».proof.Proof.LibPlainDot
import Idealize.ShloMosaic.Lib.ValueLayout

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces

/-! ## Read at an entry -/

section
variable (m : (ℓ : Loc nD τ sig) → Buf (Elt Ideal) ℓ)

open Cert.KernelIdeal.HostIn

/-- The arguments, named as the common value names them. -/
abbrev X (c : Dev nD) : FVec Ideal Cert.Spec.SX .f32 := (m ((c : Thread nD τ).loc main_arg0))
abbrev Wd (c : Dev nD) : FVec Ideal Cert.Spec.SW .f32 :=
  Dq.dequant (F := Ideal) (m ((c : Thread nD τ).loc main_arg1)) (m ((c : Thread nD τ).loc main_arg2)) (m ((c : Thread nD τ).loc main_arg3))
abbrev bias (c : Dev nD) : FVec Ideal Cert.Spec.SBias .f32 := (m ((c : Thread nD τ).loc main_arg4))
abbrev A (c : Dev nD) : FVec Ideal Cert.Spec.SA .f32 := (m ((c : Thread nD τ).loc main_arg5))
abbrev B (c : Dev nD) : FVec Ideal Cert.Spec.SB .f32 := (m ((c : Thread nD τ).loc main_arg6))

/-- One step of the main sum at entry `(p, q)`: what was there plus the sum over the piece's 1024 positions. -/
theorem accStep_apply (a : Vec Ideal S1024x1024 .f32) (x w : Vec Ideal S1024x1024 .bf16) (p q : Fin 1024) :
    (accStep a x w (ix2 p q) : EReal) = a (ix2 p q) + ∑ kk : Fin 1024, (x (ix2 p kk) * w (ix2 kk q) : EReal) := by
  show (a (ix2 p q) : EReal) + FloatOps.matmul (F := Ideal) (DotDims.plain 1024 1024 1024) none x w
    (constant ⟨2, ![1024, 1024]⟩ .f32 0x00000000#32) (ix2 p q) = _
  rw [Cert.Lib.PlainDot.matmul_zero_apply]

/-- One step of the low-rank sum at entry `(p, r)`. -/
theorem lowStep_apply (a : Vec Ideal S1024x16 .f32) (x : Vec Ideal S1024x1024 .bf16) (al : Vec Ideal S1024x16 .bf16)
    (p : Fin 1024) (r : Fin 16) :
    (lowStep a x al (ix2 p r) : EReal) = a (ix2 p r) + ∑ kk : Fin 1024, (x (ix2 p kk) * al (ix2 kk r) : EReal) := by
  show (a (ix2 p r) : EReal) + FloatOps.matmul (F := Ideal) (DotDims.plain 1024 1024 16) none x al
    (constant ⟨2, ![1024, 16]⟩ .f32 0x00000000#32) (ix2 p r) = _
  rw [Cert.Lib.PlainDot.matmul_zero_apply]

/-- The output block at entry `(p, q)`: the main sum plus the bias of the column, plus twice the low-rank sums of
    the row against the column of the second factor. -/
theorem outBlock_apply (acc : Vec Ideal S1024x1024 .f32) (lo : Vec Ideal S1024x16 .f32) (bt : Vec Ideal S16x1024 .bf16)
    (bi : Vec Ideal S1x1024 .f32) (p q : Fin 1024) :
    (outBlock acc lo bt bi (ix2 p q) : EReal)
      = (acc (ix2 p q) + bi (ix2 (0 : Fin 1) q))
        + Ideal.ofBits .f32 0x40000000#32 * ∑ r : Fin 16, (lo (ix2 p r) * bt (ix2 r q) : EReal) := by
  show ((acc (ix2 p q) : EReal) + broadcastTo ⟨2, ![1024, 1024]⟩ bi Facts₀.broadcasts_S1x1024_S1024x1024 (ix2 p q))
    + (Ideal.ofBits .f32 0x40000000#32 : EReal) * FloatOps.matmul (F := Ideal) (DotDims.plain 1024 16 1024) none
        (truncf .bf16 lo Facts₀.bitsLt_bf16_f32) bt (constant ⟨2, ![1024, 1024]⟩ .f32 0x00000000#32) (ix2 p q) = _
  rw [Cert.Lib.PlainDot.matmul_zero_apply, broadcastTo_1b_ab_apply]
  rfl

/-- The printed index maps, decided over the grid: rows by `t / 16`, output features by `t / 4 % 4`, the piece of the
    contraction axis by `t % 4`. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val % 4 ∧ win0_2.index t (1 : Fin 2) = 0
    ∧ win0_3.index t (0 : Fin 2) = 0 ∧ win0_3.index t (1 : Fin 2) = t.val / 4 % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

theorem N128 : cfg0.N = 128 := N_0

/-- Row `1024 (t / 16) + p` of the 8192-row view, output feature `1024 (t / 4 % 4) + q`, piece `t % 4`. -/
def rowOf (t : Fin cfg0.N) (p : Fin 1024) : Fin 8192 :=
  ⟨t.val / 16 * 1024 + p.val, by have := t.isLt; have := N128; have := p.isLt; omega⟩
def featOf (t : Fin cfg0.N) (q : Fin 1024) : Fin 4096 :=
  ⟨t.val / 4 % 4 * 1024 + q.val, by have := q.isLt; omega⟩
def pieceOf (t : Fin cfg0.N) : Fin 4 := ⟨t.val % 4, Nat.mod_lt _ (by norm_num)⟩

/-- The block of the row view of `x` at point `t`, entry `(p, kk)`. -/
theorem xb_eq (c : Dev nD) (t : Fin cfg0.N) (p kk : Fin 1024) :
    (xb m c t (ix2 p kk) : EReal)
      = X m c (ix3 (rowB (rowOf t p)) (rowS (rowOf t p)) (Cert.Spec.kpos (pieceOf t) kk)) := by
  obtain ⟨e0, e1, -⟩ := idx_facts t
  refine Eq.trans ?_ (x2_apply m c (rowOf t p) (Cert.Spec.kpos (pieceOf t) kk))
  show iblk m c 0 t (ix2 p kk) = _
  unfold iblk
  rw [View.read_apply]
  show V m c main_v18 _ = V m c main_v18 _
  refine congrArg _ (funext fun a => Fin.ext ?_)
  match a with
  | ⟨0, _⟩ => show win0_0.index t (0 : Fin 2) * 1024 + 1 * p.val = t.val / 16 * 1024 + p.val; rw [e0]; omega
  | ⟨1, _⟩ => show win0_0.index t (1 : Fin 2) * 1024 + 1 * kk.val = t.val % 4 * 1024 + kk.val; rw [e1]; omega

/-- Entry `(kk, q)` of window 1's block at point `t` sits at position `1024 (t % 4) + kk`, feature `1024 (t / 4 % 4) + q`
    of its array. -/
theorem emb1 (t : Fin cfg0.N) (kk q : Fin 1024) :
    ((cfg0.win 1).blk t).view.emb (ix2 kk q) = (ix2 (Cert.Spec.kpos (pieceOf t) kk) (featOf t q) : S4096x4096.Idx) := by
  obtain ⟨-, -, e0, e1, -⟩ := idx_facts t
  refine funext fun a => Fin.ext ?_
  match a with
  | ⟨0, _⟩ => show win0_1.index t (0 : Fin 2) * 1024 + 1 * kk.val = t.val % 4 * 1024 + kk.val; rw [e0]; omega
  | ⟨1, _⟩ => show win0_1.index t (1 : Fin 2) * 1024 + 1 * q.val = t.val / 4 % 4 * 1024 + q.val; rw [e1]; omega

/-- Any array read through window 1's block at point `t`: entry `(kk, q)` of the block is the array's entry at the
    block's offset. -/
theorem read1 (f : S4096x4096.Idx → EReal) (t : Fin cfg0.N) (kk q : Fin 1024) :
    ((cfg0.win 1).blk t).view.read (Elt Ideal) f (ix2 kk q) = f (ix2 (Cert.Spec.kpos (pieceOf t) kk) (featOf t q)) := by
  show f (((cfg0.win 1).blk t).view.emb (ix2 kk q)) = _
  exact congrArg f (emb1 t kk q)

/-- The block of the transposed weight at point `t`, entry `(kk, q)`, as an entry of the array it is cut from. -/
theorem wb_V (c : Dev nD) (t : Fin cfg0.N) (kk q : Fin 1024) :
    (wb m c t (ix2 kk q) : EReal)
      = (V m c main_v16 : S4096x4096.Idx → EReal) (ix2 (Cert.Spec.kpos (pieceOf t) kk) (featOf t q)) :=
  read1 (V m c main_v16) t kk q

/-- The same as an entry of the dequantised weight: row the output feature, column the position. -/
theorem wb_eq (c : Dev nD) (t : Fin cfg0.N) (kk q : Fin 1024) :
    (wb m c t (ix2 kk q) : EReal) = Wd m c (ix2 (featOf t q) (Cert.Spec.kpos (pieceOf t) kk)) :=
  (wb_V m c t kk q).trans (wt_apply m c (Cert.Spec.kpos (pieceOf t) kk) (featOf t q))

/-- The block of the transposed first factor at point `t`, entry `(kk, r)`. -/
theorem ab_eq (c : Dev nD) (t : Fin cfg0.N) (kk : Fin 1024) (r : Fin 16) :
    (ab m c t (ix2 kk r) : EReal) = A m c (ix2 r (Cert.Spec.kpos (pieceOf t) kk)) := by
  obtain ⟨-, -, -, -, e0, e1, -⟩ := idx_facts t
  refine Eq.trans ?_ (at_apply m c (Cert.Spec.kpos (pieceOf t) kk) r)
  show iblk m c 2 t (ix2 kk r) = _
  unfold iblk
  rw [View.read_apply]
  show V m c main_v20 _ = V m c main_v20 _
  refine congrArg _ (funext fun a => Fin.ext ?_)
  match a with
  | ⟨0, _⟩ => show win0_2.index t (0 : Fin 2) * 1024 + 1 * kk.val = t.val % 4 * 1024 + kk.val; rw [e0]; omega
  | ⟨1, _⟩ => show win0_2.index t (1 : Fin 2) * 16 + 1 * r.val = r.val; rw [e1]; omega

/-- The block of the transposed second factor at point `t`, entry `(r, q)`. -/
theorem btb_eq (c : Dev nD) (t : Fin cfg0.N) (r : Fin 16) (q : Fin 1024) :
    (btb m c t (ix2 r q) : EReal) = B m c (ix2 (featOf t q) r) := by
  obtain ⟨-, -, -, -, -, -, e0, e1, -⟩ := idx_facts t
  refine Eq.trans ?_ (bt_apply m c r (featOf t q))
  show iblk m c 3 t (ix2 r q) = _
  unfold iblk
  rw [View.read_apply]
  show V m c main_v22 _ = V m c main_v22 _
  refine congrArg _ (funext fun a => Fin.ext ?_)
  match a with
  | ⟨0, _⟩ => show win0_3.index t (0 : Fin 2) * 16 + 1 * r.val = r.val; rw [e0]; omega
  | ⟨1, _⟩ => show win0_3.index t (1 : Fin 2) * 1024 + 1 * q.val = t.val / 4 % 4 * 1024 + q.val; rw [e1]; omega

/-- The block of the bias row at point `t`, entry `(0, q)`. -/
theorem biasb_eq (c : Dev nD) (t : Fin cfg0.N) (q : Fin 1024) :
    (biasb m c t (ix2 (0 : Fin 1) q) : EReal) = bias m c (ix1 (featOf t q)) := by
  obtain ⟨-, -, -, -, -, -, -, -, e0, e1, -⟩ := idx_facts t
  refine Eq.trans ?_ (bias2_apply m c 0 (featOf t q))
  show iblk m c 4 t (ix2 (0 : Fin 1) q) = _
  unfold iblk
  rw [View.read_apply]
  show V m c main_v23 _ = V m c main_v23 _
  refine congrArg _ (funext fun a => Fin.ext ?_)
  match a with
  | ⟨0, _⟩ => show win0_4.index t (0 : Fin 2) * 1 + 1 * 0 = 0; rw [e0]
  | ⟨1, _⟩ => show win0_4.index t (1 : Fin 2) * 1024 + 1 * q.val = t.val / 4 % 4 * 1024 + q.val; rw [e1]; omega

end

end Cert.KernelIdeal.Blocks

end
-- ==== Proof.KerBlock.lean ====
/-
  The block a last step writes back is the common value.

  The four points `16 I + 4 J + K`, `K = 0 … 3`, share their rows and output features and take the four pieces of the
  contraction axis in order. So after the last of them the main sum at entry `(p, q)` is the four pieces' sums added in
  order to a zero, which is the whole sum over the 4096 positions: the linear map's entry at row `1024 I + p` and
  feature `1024 J + q`; likewise the low-rank sum. The output block adds the bias and twice the low-rank update.
-/
import proofs.«119632_j5781025980674_1_alg».proof.Proof.KerEntry

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Pieces Cert.KernelIdeal.HostIn

variable (m : (ℓ : Loc nD τ sig) → Buf (Elt Ideal) ℓ)

/-- One piece's contribution to the main sum, over the arguments: point `t` of row `R`, feature `O`, piece `k`. -/
theorem piece_main (c : Dev nD) (t : Fin cfg0.N) (p q : Fin 1024) (R : Fin 8192) (O : Fin 4096) (k : Fin 4)
    (hR : rowOf t p = R) (hO : featOf t q = O) (hk : pieceOf t = k) :
    ∑ kk : Fin 1024, (xb m c t (ix2 p kk) * wb m c t (ix2 kk q) : EReal)
      = ∑ kk : Fin 1024, (X m c (ix3 (rowB R) (rowS R) (Cert.Spec.kpos k kk)) * Wd m c (ix2 O (Cert.Spec.kpos k kk)) : EReal) := by
  subst hR hO hk
  exact Finset.sum_congr rfl fun kk _ => by rw [xb_eq, wb_eq]

/-- One piece's contribution to the low-rank sum. -/
theorem piece_low (c : Dev nD) (t : Fin cfg0.N) (p : Fin 1024) (r : Fin 16) (R : Fin 8192) (k : Fin 4)
    (hR : rowOf t p = R) (hk : pieceOf t = k) :
    ∑ kk : Fin 1024, (xb m c t (ix2 p kk) * ab m c t (ix2 kk r) : EReal)
      = ∑ kk : Fin 1024, (X m c (ix3 (rowB R) (rowS R) (Cert.Spec.kpos k kk)) * A m c (ix2 r (Cert.Spec.kpos k kk)) : EReal) := by
  subst hR hk
  exact Finset.sum_congr rfl fun kk _ => by rw [xb_eq, ab_eq]

/-- The main sum after the last of the four points `n, n + 1, n + 2, n + 3` (`n` divisible by 4). -/
theorem main_sum (c : Dev nD) (n : ℕ) (h : n + 1 + 1 + 1 < cfg0.N) (h0 : n % 4 = 0) (p q : Fin 1024) :
    ((sums m c (n + 1 + 1 + 1) h).1 (ix2 p q) : EReal)
      = Cert.Spec.base (X m c) (Wd m c) (rowB (rowOf ⟨n + 1 + 1 + 1, h⟩ p)) (rowS (rowOf ⟨n + 1 + 1 + 1, h⟩ p))
          (featOf ⟨n + 1 + 1 + 1, h⟩ q) := by
  have hN := N128
  have h2 : n + 1 + 1 < cfg0.N := Nat.lt_of_succ_lt h
  have h1 : n + 1 < cfg0.N := Nat.lt_of_succ_lt h2
  have hn : n < cfg0.N := Nat.lt_of_succ_lt h1
  rw [sums_step m c (n + 1 + 1) h (by omega)]
  dsimp only
  rw [accStep_apply, sums_step m c (n + 1) h2 (by omega)]
  dsimp only
  rw [accStep_apply, sums_step m c n h1 (by omega)]
  dsimp only
  rw [accStep_apply, sums_reset m c n hn h0]
  dsimp only
  rw [accStep_apply]
  rw [piece_main m c ⟨n, hn⟩ p q (rowOf ⟨n + 1 + 1 + 1, h⟩ p) (featOf ⟨n + 1 + 1 + 1, h⟩ q) 0 (Fin.ext (by show n / 16 * 1024 + p.val = (n + 1 + 1 + 1) / 16 * 1024 + p.val; omega))
      (Fin.ext (by show n / 4 % 4 * 1024 + q.val = (n + 1 + 1 + 1) / 4 % 4 * 1024 + q.val; omega))
      (Fin.ext (by show n % 4 = 0; omega)),
    piece_main m c ⟨n + 1, h1⟩ p q (rowOf ⟨n + 1 + 1 + 1, h⟩ p) (featOf ⟨n + 1 + 1 + 1, h⟩ q) 1 (Fin.ext (by show (n + 1) / 16 * 1024 + p.val = (n + 1 + 1 + 1) / 16 * 1024 + p.val; omega))
      (Fin.ext (by show (n + 1) / 4 % 4 * 1024 + q.val = (n + 1 + 1 + 1) / 4 % 4 * 1024 + q.val; omega))
      (Fin.ext (by show (n + 1) % 4 = 1; omega)),
    piece_main m c ⟨n + 1 + 1, h2⟩ p q (rowOf ⟨n + 1 + 1 + 1, h⟩ p) (featOf ⟨n + 1 + 1 + 1, h⟩ q) 2 (Fin.ext (by show (n + 1 + 1) / 16 * 1024 + p.val = (n + 1 + 1 + 1) / 16 * 1024 + p.val; omega))
      (Fin.ext (by show (n + 1 + 1) / 4 % 4 * 1024 + q.val = (n + 1 + 1 + 1) / 4 % 4 * 1024 + q.val; omega))
      (Fin.ext (by show (n + 1 + 1) % 4 = 2; omega)),
    piece_main m c ⟨n + 1 + 1 + 1, h⟩ p q (rowOf ⟨n + 1 + 1 + 1, h⟩ p) (featOf ⟨n + 1 + 1 + 1, h⟩ q) 3 rfl rfl (Fin.ext (by show (n + 1 + 1 + 1) % 4 = 3; omega))]
  show ((((Ideal.ofBits .f32 0x00000000#32 + _) + _) + _) + _ : EReal) = _
  rw [Ideal.ofBits_zero_f32]
  unfold Cert.Spec.base
  rw [Cert.Spec.sum_kpos, ← Cert.Spec.chain4]

/-- The low-rank sum after the last of the four points. -/
theorem low_sum (c : Dev nD) (n : ℕ) (h : n + 1 + 1 + 1 < cfg0.N) (h0 : n % 4 = 0) (p : Fin 1024) (r : Fin 16) :
    ((sums m c (n + 1 + 1 + 1) h).2 (ix2 p r) : EReal)
      = Cert.Spec.low (X m c) (A m c) (rowB (rowOf ⟨n + 1 + 1 + 1, h⟩ p)) (rowS (rowOf ⟨n + 1 + 1 + 1, h⟩ p)) r := by
  have hN := N128
  have h2 : n + 1 + 1 < cfg0.N := Nat.lt_of_succ_lt h
  have h1 : n + 1 < cfg0.N := Nat.lt_of_succ_lt h2
  have hn : n < cfg0.N := Nat.lt_of_succ_lt h1
  rw [sums_step m c (n + 1 + 1) h (by omega)]
  dsimp only
  rw [lowStep_apply, sums_step m c (n + 1) h2 (by omega)]
  dsimp only
  rw [lowStep_apply, sums_step m c n h1 (by omega)]
  dsimp only
  rw [lowStep_apply, sums_reset m c n hn h0]
  dsimp only
  rw [lowStep_apply]
  rw [piece_low m c ⟨n, hn⟩ p r (rowOf ⟨n + 1 + 1 + 1, h⟩ p) 0 (Fin.ext (by show n / 16 * 1024 + p.val = (n + 1 + 1 + 1) / 16 * 1024 + p.val; omega))
      (Fin.ext (by show n % 4 = 0; omega)),
    piece_low m c ⟨n + 1, h1⟩ p r (rowOf ⟨n + 1 + 1 + 1, h⟩ p) 1 (Fin.ext (by show (n + 1) / 16 * 1024 + p.val = (n + 1 + 1 + 1) / 16 * 1024 + p.val; omega))
      (Fin.ext (by show (n + 1) % 4 = 1; omega)),
    piece_low m c ⟨n + 1 + 1, h2⟩ p r (rowOf ⟨n + 1 + 1 + 1, h⟩ p) 2 (Fin.ext (by show (n + 1 + 1) / 16 * 1024 + p.val = (n + 1 + 1 + 1) / 16 * 1024 + p.val; omega))
      (Fin.ext (by show (n + 1 + 1) % 4 = 2; omega)),
    piece_low m c ⟨n + 1 + 1 + 1, h⟩ p r (rowOf ⟨n + 1 + 1 + 1, h⟩ p) 3 rfl (Fin.ext (by show (n + 1 + 1 + 1) % 4 = 3; omega))]
  show ((((Ideal.ofBits .f32 0x00000000#32 + _) + _) + _) + _ : EReal) = _
  rw [Ideal.ofBits_zero_f32]
  unfold Cert.Spec.low
  rw [Cert.Spec.sum_kpos, ← Cert.Spec.chain4]

/-- The output block a last step leaves, at entry `(p, q)`: the common value at the block's row and feature. -/
theorem block_apply (c : Dev nD) (t : Fin cfg0.N) (h3 : t.val % 4 = 3) (p q : Fin 1024) :
    ((outsAt0 m c t.val t.isLt).1 (ix2 p q) : EReal)
      = Cert.Spec.outAt (X m c) (Wd m c) (bias m c) (A m c) (B m c) (rowB (rowOf t p)) (rowS (rowOf t p)) (featOf t q) := by
  obtain ⟨tv, ht⟩ := t
  obtain ⟨n, rfl⟩ : ∃ n, tv = n + 1 + 1 + 1 := ⟨tv - 3, by dsimp only at h3; omega⟩
  have h0 : n % 4 = 0 := by dsimp only at h3; omega
  rw [out_last m c ⟨n + 1 + 1 + 1, ht⟩ h3, outBlock_apply, biasb_eq]
  dsimp only
  rw [main_sum m c n ht h0 p q]
  simp only [low_sum m c n ht h0 p, btb_eq]
  rfl

end Cert.KernelIdeal.Blocks

end
-- ==== Proof.KerFinal.lean ====
/-
  The kernel program's result, as the common value of its arguments.

  Every last step writes its block back, and the blocks of the 8 × 4 last steps tile the 8192 × 4096 array the region
  writes: row `r`, feature `o` lies in the block of the point `16 (r / 1024) + 4 (o / 1024) + 3`. So that array ends
  holding, at `(r, o)`, the common value of token `(r / 2048, r % 2048)` and feature `o`; the reshape after the region
  reads it back as `[4, 2048, 4096]`: entry `(b, s, o)` from row `2048 b + s`.
-/
import proofs.«119632_j5781025980674_1_alg».proof.Proof.KerBlock
import Idealize.ShloMosaic.Lib.StableHlo.Run

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.HostIn

variable (m : (ℓ : Loc nD τ sig) → Buf (Elt Ideal) ℓ) (ρ : Dev nD → PrngReg)

/-- The array the region writes, as one function of the arguments: row `r` is token `(r / 2048, r % 2048)`. -/
def rows (c : Dev nD) : S8192x4096.Idx → EReal :=
  fun j => Cert.Spec.outAt (X m c) (Wd m c) (bias m c) (A m c) (B m c) (rowB (j 0)) (rowS (j 0)) (j 1)

/-- What a last step writes back is its block of `rows`. -/
theorem flushed_eq (c : Dev nD) (t : Fin cfg0.N) (hf : (cfg0.win 5).flush t = true) :
    (dats m 0 c).flushed 5 t = ((cfg0.win 5).blk t).view.read (Elt Ideal) (rows m c) := by
  have h3 : t.val % 4 = 3 := (flush0_5 t).mp hf
  obtain ⟨-, -, -, -, -, -, -, -, -, -, e0, e1⟩ := idx_facts t
  show (cfg0.win 5).cut (grid0.coords t) ((dats m 0 c).after 5 t) = _
  rw [after0_5]
  funext y
  obtain ⟨p, q, rfl⟩ : ∃ (p q : Fin 1024), y = ix2 p q := ⟨y 0, y 1, eq_ix2 y⟩
  rw [View.read_apply]
  have e : ((cfg0.win 5).blk t).view.emb (ix2 p q) = ix2 (rowOf t p) (featOf t q) := funext fun a => Fin.ext (by
    match a with
    | ⟨0, _⟩ => show win0_5.index t (0 : Fin 2) * 1024 + 1 * p.val = t.val / 16 * 1024 + p.val; rw [e0]; omega
    | ⟨1, _⟩ => show win0_5.index t (1 : Fin 2) * 1024 + 1 * q.val = t.val / 4 % 4 * 1024 + q.val; rw [e1]; omega)
  rw [e]
  exact block_apply m c t h3 p q

/-- An index of the array is in point `t`'s block iff each coordinate is in the block's range on its axis. -/
theorem mem_blk (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v24).slice (win0_5.rect t)).set ↔ _
  rw [View.set_slice_whole, Rect.mem_set_unit]
  exact Iff.rfl

/-- Every entry of the array is in the block of some last step. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN := N128
  obtain ⟨t, ht⟩ : ∃ t : Fin cfg0.N, t.val = (i 0).val / 1024 * 16 + (i 1).val / 1024 * 4 + 3 :=
    ⟨⟨(i 0).val / 1024 * 16 + (i 1).val / 1024 * 4 + 3, by omega⟩, rfl⟩
  obtain ⟨-, -, -, -, -, -, -, -, -, -, e0, e1⟩ := idx_facts t
  refine ⟨t, (flush0_5 t).mpr (by omega), ?_⟩
  rw [mem_blk]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 1024 ≤ (i 1).val ∧ (i 1).val < win0_5.index t (1 : Fin 2) * 1024 + 1024
    rw [e1]; omega

/-- So the array ends holding `rows`. -/
theorem final (c : Dev nD) : (dats m 0 c).arrAt 5 cfg0.N = rows m c :=
  (dats m 0 c).arrAt_eq_of_cover 5 (rows m c) (flushed_eq m c) cover

/-- The reshape after the region: entry `(b, s, o)` is row `2048 b + s`, feature `o`. -/
theorem tail_eq (c : Dev nD) :
    Pipeline.afterTail₀ cfgs (dats m) 0 (V0 m) [hostOps1] c main_v25
      = Cert.Spec.out (X m c) (Wd m c) (bias m c) (A m c) (B m c) := by
  unfold Pipeline.afterTail₀
  show StableHlo.after hostOps1 _ (Proc.devRef .tc main_v25) = _
  after_results
  have hW : Pipeline.withArrays (cfgs 0).spec c (V0 m c) (fun w => (dats m 0 c).arrAt w (cfgs 0).N)
      (Proc.tc.devRef main_v24) = rows m c :=
    (Pipeline.withArrays_arr spec0 launch0.win.arr_inj c _ _ 5).trans (final m c)
  funext j
  obtain ⟨b, s, o, rfl⟩ : ∃ (b : Fin 4) (s : Fin 2048) (o : Fin 4096), j = ix3 b s o := ⟨j 0, j 1, j 2, eq_ix3 j⟩
  show shapeCast S4x2048x4096 (Pipeline.withArrays (cfgs 0).spec c (V0 m c) (fun w => (dats m 0 c).arrAt w (cfgs 0).N)
      (Proc.tc.devRef main_v24)) Facts₀.shapeCasts_S8192x4096_S4x2048x4096 (ix3 b s o) = _
  refine (congrArg (fun f => shapeCast S4x2048x4096 f Facts₀.shapeCasts_S8192x4096_S4x2048x4096 (ix3 b s o)) hW).trans ?_
  have hs := s.isLt
  have hb := b.isLt
  refine (shapeCast_apply (rows m c) Facts₀.shapeCasts_S8192x4096_S4x2048x4096 (ix3 b s o)
    (ix2 (⟨b.val * 2048 + s.val, by omega⟩ : Fin 8192) o) ?_).trans ?_
  · rw [Shape.rowMajor_val_two, Shape.rowMajor_val_three]
    rfl
  · show Cert.Spec.outAt _ _ _ _ _ (rowB ⟨b.val * 2048 + s.val, _⟩) (rowS ⟨b.val * 2048 + s.val, _⟩) o
      = Cert.Spec.outAt _ _ _ _ _ b s o
    rw [show rowB (⟨b.val * 2048 + s.val, by omega⟩ : Fin 8192) = b from Fin.ext (by show (b.val * 2048 + s.val) / 2048 = b.val; omega),
      show rowS (⟨b.val * 2048 + s.val, by omega⟩ : Fin 8192) = s from Fin.ext (by show (b.val * 2048 + s.val) % 2048 = s.val; omega)]

/-- The run, read: the result at the common value of the arguments, the arguments as they were. -/
theorem run : θ_run defs (onTc (τ := τ) (main (F := Ideal))) ⟨m, fun _ => 0, ρ⟩ fun r => ∀ c : Dev nD,
      r.2.mem ((c.tc : Thread nD τ).loc main_v25) = Cert.Spec.out (X m c) (Wd m c) (bias m c) (A m c) (B m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Value

end
-- ==== Proof.RefDequant.lean ====
/-
  The weight matrix both programs build before anything else.

  A code `codes[o, g, c]` selects row `codes[o, g, c]` of codebook `c` (`jnp.take` along axis 0: a negative code is
  first moved up by the table's 256 rows, and a code still outside `0 … 255` yields the fill value instead of a
  row); the two selected rows of 8 numbers are added, scaled by `scales[o]`, and laid out as positions
  `8 g … 8 g + 7` of row `o` of a 4096 × 4096 matrix. Nothing below ever opens this chain: the two programs apply the
  same operations to the same arguments, and only that is used.
-/
import proofs.«119632_j5781025980674_1_alg».proof.Proof.Gen.ReferenceIdeal

noncomputable section

namespace Cert.ReferenceIdeal.Dq

open Idealize.ShloMosaic Idealize.SL.Sem
open Cert.ReferenceIdeal Cert.ReferenceIdeal.Facts₀ Cert.ReferenceIdeal.Facts

variable {F : FTy → Type} [FloatOps F]

/-- `jnp.take(table, idx, axis=0)`: per code the table's row, or the fill value where the code is out of range. -/
def take (table : FVec F S256x1x8 .f32) (idx : IVec S4096x512 32) : FVec F S4096x512x1x8 .f32 :=
  let wrapped : IVec S4096x512 32 :=
    select (cmpi .slt idx (broadcastInDim S4096x512 ![] bcast_S_S4096x512 (constantI S_ 32 0#32)))
      (addi idx (broadcastInDim S4096x512 ![] bcast_S_S4096x512 (constantI S_ 32 256#32))) idx
  let pos : IVec S4096x512x1 32 := broadcastInDim S4096x512x1 ![0, 1] bcast_S4096x512_S4096x512x1_0_1 wrapped
  let inRange : IVec S4096x512 1 :=
    Host.reduce IntOp.andi
      (andi (cmpi .sge pos (broadcastInDim S4096x512x1 ![] bcast_S_S4096x512x1 (constantI S_ 32 0#32)))
        (cmpi .sle pos (broadcastInDim S4096x512x1 ![0, 1, 2] bcast_S1x1x1_S4096x512x1_0_1_2
          (broadcastInDim S1x1x1 ![2] bcast_S1_S1x1x1_2 (constantI S1 32 255#32)))))
      (constantI S_ 1 1#1) reducesTo_S4096x512x1_S4096x512_d2 h_S_
  select (broadcastInDim S4096x512x1x8 ![0, 1] bcast_S4096x512_S4096x512x1x8_0_1 inRange)
    (Host.gather gather_S256x1x8_S4096x512x1_S4096x512x1x8_23_0_n_n_0_2_118 table pos)
    (broadcastInDim S4096x512x1x8 ![] bcast_S_S4096x512x1x8 (constant (F := F) S_ .f32 0x7FC00000#32))

/-- Codebook `c`'s table: its 256 rows of 8 numbers. -/
def table0 (cb : FVec F S2x256x1x8 .f32) : FVec F S256x1x8 .f32 :=
  shapeCast S256x1x8 (extractStridedSlice S1x256x1x8 ![0, 0, 0, 0] cb slices_S2x256x1x8_S1x256x1x8_0_0_0_0)
    shapeCasts_S1x256x1x8_S256x1x8
def table1 (cb : FVec F S2x256x1x8 .f32) : FVec F S256x1x8 .f32 :=
  shapeCast S256x1x8 (extractStridedSlice S1x256x1x8 ![1, 0, 0, 0] cb slices_S2x256x1x8_S1x256x1x8_1_0_0_0)
    shapeCasts_S1x256x1x8_S256x1x8

/-- The codes that index codebook `c`. -/
def codes0 (codes : IVec S4096x512x2 32) : IVec S4096x512 32 :=
  shapeCast S4096x512 (extractStridedSlice S4096x512x1 ![0, 0, 0] codes slices_S4096x512x2_S4096x512x1_0_0_0)
    shapeCasts_S4096x512x1_S4096x512
def codes1 (codes : IVec S4096x512x2 32) : IVec S4096x512 32 :=
  shapeCast S4096x512 (extractStridedSlice S4096x512x1 ![0, 0, 1] codes slices_S4096x512x2_S4096x512x1_0_0_1)
    shapeCasts_S4096x512x1_S4096x512

/-- The dequantised weight: the two selected rows added, scaled per output feature, laid out as a 4096 × 4096 matrix. -/
def dequant (codes : IVec S4096x512x2 32) (cb : FVec F S2x256x1x8 .f32) (scales : FVec F S4096x1x1x1 .f32) :
    FVec F S4096x4096 .f32 :=
  shapeCast S4096x4096
    (transpose S4096x1x512x8 [0, 2, 1, 3]
      (mulf (addf (take (table0 cb) (codes0 codes)) (take (table1 cb) (codes1 codes)))
        (broadcastInDim S4096x512x1x8 ![0, 1, 2, 3] bcast_S4096x1x1x1_S4096x512x1x8_0_1_2_3 scales))
      transposes_S4096x512x1x8_S4096x1x512x8_0_2_1_3)
    shapeCasts_S4096x1x512x8_S4096x4096

end Cert.ReferenceIdeal.Dq

end
-- ==== Proof.RefTerm.lean ====
/-
  The reference's whole result as one term of its arguments: the linear map `x · wᵀ` over the dequantised weight with
  its bias, plus twice the low-rank update `(x · aᵀ) · bbᵀ`.
-/
import proofs.«119632_j5781025980674_1_alg».proof.Proof.RefDequant

noncomputable section

namespace Cert.ReferenceIdeal.Dq

open Idealize.ShloMosaic Idealize.SL.Sem
open Cert.ReferenceIdeal Cert.ReferenceIdeal.Facts₀ Cert.ReferenceIdeal.Facts

variable {F : FTy → Type} [FloatOps F]

/-- The reference's result as one term of its arguments: the linear map with its bias, plus twice the low-rank update. -/
def refTerm (x : FVec F S4x2048x4096 .f32) (codes : IVec S4096x512x2 32) (cb : FVec F S2x256x1x8 .f32)
    (scales : FVec F S4096x1x1x1 .f32) (bias : FVec F S4096 .f32) (a : FVec F S16x4096 .f32) (bb : FVec F S4096x16 .f32) :
    FVec F S4x2048x4096 .f32 :=
  addf
    (addf (Host.dotGeneral dot_S4x2048x4096_S4096x4096_S4x2048x4096_2_1_01_0_n_n none x (dequant codes cb scales))
      (broadcastInDim S4x2048x4096 ![0, 1, 2] bcast_S1x1x4096_S4x2048x4096_0_1_2
        (broadcastInDim S1x1x4096 ![2] bcast_S4096_S1x1x4096_2 bias)))
    (mulf (broadcastInDim S4x2048x4096 ![] bcast_S_S4x2048x4096 (constant (F := F) S_ .f32 0x40000000#32))
      (Host.dotGeneral dot_S4x2048x16_S4096x16_S4x2048x4096_2_1_01_0_n_n none
        (Host.dotGeneral dot_S4x2048x4096_S16x4096_S4x2048x16_2_1_01_0_n_n none x a) bb))

end Cert.ReferenceIdeal.Dq

end
-- ==== Proof.RefRun.lean ====
/-
  The reference's run: its @main is a straight line of host operations (the two `jnp.take`s and the `jnp.where` inside
  them written out where they are called), so every weakly fair execution ends with the result at the operations'
  composed term of the arguments, and the arguments as they were.
-/
import proofs.«119632_j5781025980674_1_alg».proof.Proof.Gen.ReferenceIdeal
import proofs.«119632_j5781025980674_1_alg».proof.Proof.RefTerm
import Idealize.ShloMosaic.Lib.StableHlo.Run
import Idealize.ShloMosaic.Lib.Tactic

noncomputable section

namespace Cert.ReferenceIdeal.Value

open Idealize.ShloMosaic Idealize.ShloMosaic.TcCoe Idealize.SL.Sem Idealize.ShloMosaic.StableHlo
open Cert.ReferenceIdeal Cert.ReferenceIdeal.Gen

variable {F : FTy → Type} [FloatOps F]

/-- @main's 69 operations in order, the two calls of `_take` (each with its call of `_where`, one select) written out
    over the buffers of their records: the slices of codebook and codes, the 23 operations of the first `take`, the
    same for the second, the sum scaled and laid out as the weight, then the linear map, the bias, the low-rank update
    and its factor 2. -/
abbrev ops : List (HloOp τ sig (Elt F)) :=
  [ unary main_arg2 main_v0 ((extractStridedSlice S1x256x1x8 ![0, 0, 0, 0] · slices_S2x256x1x8_S1x256x1x8_0_0_0_0) : (⟨S2x256x1x8, .f32⟩ : BufTy).Contents (Elt F) → (⟨S1x256x1x8, .f32⟩ : BufTy).Contents (Elt F)),
    reshape main_v0 main_v1 rfl shapeCasts_S1x256x1x8_S256x1x8,
    unary main_arg1 main_v2 ((extractStridedSlice S4096x512x1 ![0, 0, 0] · slices_S4096x512x2_S4096x512x1_0_0_0) : (⟨S4096x512x2, .i32⟩ : BufTy).Contents (Elt F) → (⟨S4096x512x1, .i32⟩ : BufTy).Contents (Elt F)),
    reshape main_v2 main_v3 rfl shapeCasts_S4096x512x1_S4096x512,
    TRef.nullary main_call0.c (constantI S_ 32 0#32),
    TRef.unary main_call0.c main_call0.v0 (broadcastInDim S4096x512 ![] bcast_S_S4096x512),
    TRef.binary (.of main_v3) main_call0.v0 main_call0.v1 (cmpi .slt),
    TRef.nullary main_call0.c_0 (constantI S_ 32 256#32),
    TRef.unary main_call0.c_0 main_call0.v2 (broadcastInDim S4096x512 ![] bcast_S_S4096x512),
    TRef.binary (.of main_v3) main_call0.v2 main_call0.v3 addi,
    TRef.ternary main_call0.v1 main_call0.v3 (.of main_v3) main_call0.call0.v0 select,
    TRef.unary main_call0.call0.v0 main_call0.v5 (broadcastInDim S4096x512x1 ![0, 1] bcast_S4096x512_S4096x512x1_0_1),
    TRef.nullary main_call0.c_1 (constantI S1 32 255#32),
    TRef.nullary main_call0.c_2 (constantI S_ 32 0#32),
    TRef.unary main_call0.c_2 main_call0.v6 (broadcastInDim S4096x512x1 ![] bcast_S_S4096x512x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x512x1 ![0, 1, 2] bcast_S1x1x1_S4096x512x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x512x1_S4096x512_d2 h_S_),
    TRef.binary (.of main_v1) main_call0.v5 main_call0.v13 (fun x i => Host.gather gather_S256x1x8_S4096x512x1_S4096x512x1x8_23_0_n_n_0_2_118 x i),
    TRef.unary main_call0.v12 main_call0.v14 (broadcastInDim S4096x512x1x8 ![0, 1] bcast_S4096x512_S4096x512x1x8_0_1),
    TRef.nullary main_call0.cst (constant S_ .f32 0x7FC00000#32),
    TRef.unary main_call0.cst main_call0.v15 (broadcastInDim S4096x512x1x8 ![] bcast_S_S4096x512x1x8),
    TRef.ternary main_call0.v14 main_call0.v13 main_call0.v15 main_call0.v16 select,
    unary main_arg2 main_v5 ((extractStridedSlice S1x256x1x8 ![1, 0, 0, 0] · slices_S2x256x1x8_S1x256x1x8_1_0_0_0) : (⟨S2x256x1x8, .f32⟩ : BufTy).Contents (Elt F) → (⟨S1x256x1x8, .f32⟩ : BufTy).Contents (Elt F)),
    reshape main_v5 main_v6 rfl shapeCasts_S1x256x1x8_S256x1x8,
    unary main_arg1 main_v7 ((extractStridedSlice S4096x512x1 ![0, 0, 1] · slices_S4096x512x2_S4096x512x1_0_0_1) : (⟨S4096x512x2, .i32⟩ : BufTy).Contents (Elt F) → (⟨S4096x512x1, .i32⟩ : BufTy).Contents (Elt F)),
    reshape main_v7 main_v8 rfl shapeCasts_S4096x512x1_S4096x512,
    TRef.nullary main_call1.c (constantI S_ 32 0#32),
    TRef.unary main_call1.c main_call1.v0 (broadcastInDim S4096x512 ![] bcast_S_S4096x512),
    TRef.binary (.of main_v8) main_call1.v0 main_call1.v1 (cmpi .slt),
    TRef.nullary main_call1.c_0 (constantI S_ 32 256#32),
    TRef.unary main_call1.c_0 main_call1.v2 (broadcastInDim S4096x512 ![] bcast_S_S4096x512),
    TRef.binary (.of main_v8) main_call1.v2 main_call1.v3 addi,
    TRef.ternary main_call1.v1 main_call1.v3 (.of main_v8) main_call1.call0.v0 select,
    TRef.unary main_call1.call0.v0 main_call1.v5 (broadcastInDim S4096x512x1 ![0, 1] bcast_S4096x512_S4096x512x1_0_1),
    TRef.nullary main_call1.c_1 (constantI S1 32 255#32),
    TRef.nullary main_call1.c_2 (constantI S_ 32 0#32),
    TRef.unary main_call1.c_2 main_call1.v6 (broadcastInDim S4096x512x1 ![] bcast_S_S4096x512x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x512x1 ![0, 1, 2] bcast_S1x1x1_S4096x512x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x512x1_S4096x512_d2 h_S_),
    TRef.binary (.of main_v6) main_call1.v5 main_call1.v13 (fun x i => Host.gather gather_S256x1x8_S4096x512x1_S4096x512x1x8_23_0_n_n_0_2_118 x i),
    TRef.unary main_call1.v12 main_call1.v14 (broadcastInDim S4096x512x1x8 ![0, 1] bcast_S4096x512_S4096x512x1x8_0_1),
    TRef.nullary main_call1.cst (constant S_ .f32 0x7FC00000#32),
    TRef.unary main_call1.cst main_call1.v15 (broadcastInDim S4096x512x1x8 ![] bcast_S_S4096x512x1x8),
    TRef.ternary main_call1.v14 main_call1.v13 main_call1.v15 main_call1.v16 select,
    binary main_v4 main_v9 main_v10 (addf : (⟨S4096x512x1x8, .f32⟩ : BufTy).Contents (Elt F) → (⟨S4096x512x1x8, .f32⟩ : BufTy).Contents (Elt F) → (⟨S4096x512x1x8, .f32⟩ : BufTy).Contents (Elt F)),
    unary main_arg3 main_v11 (broadcastInDim S4096x512x1x8 ![0, 1, 2, 3] bcast_S4096x1x1x1_S4096x512x1x8_0_1_2_3 : (⟨S4096x1x1x1, .f32⟩ : BufTy).Contents (Elt F) → (⟨S4096x512x1x8, .f32⟩ : BufTy).Contents (Elt F)),
    binary main_v10 main_v11 main_v12 (mulf : (⟨S4096x512x1x8, .f32⟩ : BufTy).Contents (Elt F) → (⟨S4096x512x1x8, .f32⟩ : BufTy).Contents (Elt F) → (⟨S4096x512x1x8, .f32⟩ : BufTy).Contents (Elt F)),
    unary main_v12 main_v13 ((transpose S4096x1x512x8 [0, 2, 1, 3] · transposes_S4096x512x1x8_S4096x1x512x8_0_2_1_3) : (⟨S4096x512x1x8, .f32⟩ : BufTy).Contents (Elt F) → (⟨S4096x1x512x8, .f32⟩ : BufTy).Contents (Elt F)),
    reshape main_v13 main_v14 rfl shapeCasts_S4096x1x512x8_S4096x4096,
    binary main_arg0 main_v14 main_v15 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg4 main_v16 (broadcastInDim S1x1x4096 ![2] bcast_S4096_S1x1x4096_2 : (⟨S4096, .f32⟩ : BufTy).Contents (Elt F) → (⟨S1x1x4096, .f32⟩ : BufTy).Contents (Elt F)),
    unary main_v16 main_v17 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v15 main_v17 main_v18 (addf : (⟨S4x2048x4096, .f32⟩ : BufTy).Contents (Elt F) → (⟨S4x2048x4096, .f32⟩ : BufTy).Contents (Elt F) → (⟨S4x2048x4096, .f32⟩ : BufTy).Contents (Elt F)),
    binary main_arg0 main_arg5 main_v19 ((fun l r => Host.dotGeneral dot_S4x2048x4096_S16x4096_S4x2048x16_2_1_01_0_n_n none l r) : (⟨S4x2048x4096, .f32⟩ : BufTy).Contents (Elt F) → (⟨S16x4096, .f32⟩ : BufTy).Contents (Elt F) → (⟨S4x2048x16, .f32⟩ : BufTy).Contents (Elt F)),
    binary main_v19 main_arg6 main_v20 ((fun l r => Host.dotGeneral dot_S4x2048x16_S4096x16_S4x2048x4096_2_1_01_0_n_n none l r) : (⟨S4x2048x16, .f32⟩ : BufTy).Contents (Elt F) → (⟨S4096x16, .f32⟩ : BufTy).Contents (Elt F) → (⟨S4x2048x4096, .f32⟩ : BufTy).Contents (Elt F)),
    nullary main_cst (constant S_ .f32 0x40000000#32),
    unary main_cst main_v21 (broadcastInDim S4x2048x4096 ![] bcast_S_S4x2048x4096 : (⟨S_, .f32⟩ : BufTy).Contents (Elt F) → (⟨S4x2048x4096, .f32⟩ : BufTy).Contents (Elt F)),
    binary main_v21 main_v20 main_v22 (mulf : (⟨S4x2048x4096, .f32⟩ : BufTy).Contents (Elt F) → (⟨S4x2048x4096, .f32⟩ : BufTy).Contents (Elt F) → (⟨S4x2048x4096, .f32⟩ : BufTy).Contents (Elt F)),
    binary main_v18 main_v22 main_v23 (addf : (⟨S4x2048x4096, .f32⟩ : BufTy).Contents (Elt F) → (⟨S4x2048x4096, .f32⟩ : BufTy).Contents (Elt F) → (⟨S4x2048x4096, .f32⟩ : BufTy).Contents (Elt F)) ]

/-- @main is that straight line: the two functions' bodies unfolded where they are called, both sides are one chain of
    operations, by computation. -/
theorem main_eq (c : Dev nD) : main (F := F) c = seq ops := rfl

/-- No buffer of the program is scoped. -/
theorem scopedRefs_eq : (Finset.univ.filter fun b : Ref sig .tc => b.isScoped) = ∅ := by decide
/-- No semaphore of the program is scoped (it has none). -/
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., unary_bufs_sub .., binary_bufs_sub .., unary_bufs_sub .., reshape_bufs_sub .., binary_bufs_sub ..,
    unary_bufs_sub .., unary_bufs_sub .., binary_bufs_sub .., binary_bufs_sub .., binary_bufs_sub .., nullary_bufs_sub ..,
    unary_bufs_sub .., binary_bufs_sub .., binary_bufs_sub ..⟩

/-- Transport along an equation of a type with itself is the identity. -/
theorem cast_self {α : Type} (h : α = α) (a : α) : cast h a = a := eq_of_heq (cast_heq h a)

/-- The fold of the operations at the result buffer is the reference's term of the arguments: each operation's result
    read at its own buffer is its function of its operands' contents, at any other buffer what was there; the typed
    references of the two calls carry their values along equations of a type with itself, which are the identity; what
    is left is the term itself, its named parts opened. -/
theorem out_eq (V : Valuation τ sig (Elt F)) :
    after ops V (main_v23 : DevRef τ sig)
      = Dq.refTerm (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) := by
  after_results_simp
  simp only [TRef.toBuf, TRef.ofBuf, cast_self]
  unfold Dq.refTerm Dq.dequant Dq.take Dq.table0 Dq.table1 Dq.codes0 Dq.codes1
  rfl

/-! No operation writes an argument's buffer: the fold leaves each as it was. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp

/-- On every device, for any float values, from any memory with zero counters: every weakly fair execution of @main
    terminates with the result buffer at the reference's term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
        = Dq.refTerm (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v23).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.ReferenceIdeal.Value

end
-- ==== Proof.RefRead.lean ====
/-
  The reference's term, read at an entry over the extended reals, is the common value: each of its three
  `dot_general`s contracts the last axis of its left operand with the last axis of its right operand, so at entry
  `(b, s, o)` it is the sum over the contracted position of the two operands' entries; the bias is broadcast along the
  two leading axes, and the scale 2.0 along all three.
-/
import proofs.«119632_j5781025980674_1_alg».proof.Proof.RefTerm
import proofs.«119632_j5781025980674_1_alg».proof.Proof.Spec
import Idealize.ShloMosaic.Lib.ValueIdx
import Idealize.ShloMosaic.Lib.Pipeline.Value
import Idealize.ShloMosaic.PureOps.Ideal.Laws

noncomputable section

namespace Cert.ReferenceIdeal.Read

open Idealize.ShloMosaic Idealize.ShloMosaic.ValueIdx
open Cert.ReferenceIdeal Cert.ReferenceIdeal.Gen

/-! ## Contracting the last axis of a rank-3 array with the last axis of a matrix (`bsi,oi->bso`) -/

section LastAxes
variable {A B K N : Nat}

/-- The dimension numbers of `bsi,oi->bso`: the left operand's axis 2 is contracted with the right operand's axis 1,
    the left operand's axes 0 and 1 and the right operand's axis 0 are kept in that order, no batch axis. -/
abbrev lastDims (A B K N : Nat)
    (wf : DotDims.WF ⟨3, ![A, B, K]⟩ ⟨2, ![N, K]⟩ ⟨3, ![A, B, N]⟩ [2] [1] [0, 1] [0] [] []) :
    DotDims ⟨3, ![A, B, K]⟩ ⟨2, ![N, K]⟩ ⟨3, ![A, B, N]⟩ where
  lhsContracting := [2]
  rhsContracting := [1]
  lhsNonContracting := [0, 1]
  rhsNonContracting := [0]
  lhsBatch := []
  rhsBatch := []
  wf := wf

variable (wf : DotDims.WF ⟨3, ![A, B, K]⟩ ⟨2, ![N, K]⟩ ⟨3, ![A, B, N]⟩ [2] [1] [0, 1] [0] [] [])

/-- The left operand's first coordinate is the result's first. -/
theorem lhs_axis0 (j : (⟨3, ![A, B, N]⟩ : Shape).Idx) (c : (lastDims A B K N wf).contr.Idx) :
    ((lastDims A B K N wf).lhsIdx j c 0).val = (j 0).val := by
  unfold DotDims.lhsIdx
  rw [dif_neg (show ¬(0 : Fin (⟨3, ![A, B, K]⟩ : Shape).rank) ∈ (lastDims A B K N wf).lhsBatch from List.not_mem_nil),
    dif_pos (show (0 : Fin (⟨3, ![A, B, K]⟩ : Shape).rank) ∈ (lastDims A B K N wf).lhsNonContracting from List.mem_cons_self)]
  rfl

/-- The left operand's second coordinate is the result's second. -/
theorem lhs_axis1 (j : (⟨3, ![A, B, N]⟩ : Shape).Idx) (c : (lastDims A B K N wf).contr.Idx) :
    ((lastDims A B K N wf).lhsIdx j c 1).val = (j 1).val := by
  unfold DotDims.lhsIdx
  rw [dif_neg (show ¬(1 : Fin (⟨3, ![A, B, K]⟩ : Shape).rank) ∈ (lastDims A B K N wf).lhsBatch from List.not_mem_nil),
    dif_pos (show (1 : Fin (⟨3, ![A, B, K]⟩ : Shape).rank) ∈ (lastDims A B K N wf).lhsNonContracting from
      List.mem_cons_of_mem _ List.mem_cons_self)]
  rfl

/-- The left operand's third coordinate is the contraction position. -/
theorem lhs_axis2 (j : (⟨3, ![A, B, N]⟩ : Shape).Idx) (c : (lastDims A B K N wf).contr.Idx) :
    ((lastDims A B K N wf).lhsIdx j c 2).val = (c ⟨0, Nat.one_pos⟩).val :=
  (lastDims A B K N wf).lhsIdx_val_of_single rfl j c

/-- The right operand's row coordinate is the result's third. -/
theorem rhs_axis0 (j : (⟨3, ![A, B, N]⟩ : Shape).Idx) (c : (lastDims A B K N wf).contr.Idx) :
    ((lastDims A B K N wf).rhsIdx j c 0).val = (j 2).val := by
  unfold DotDims.rhsIdx
  rw [dif_neg (show ¬(0 : Fin (⟨2, ![N, K]⟩ : Shape).rank) ∈ (lastDims A B K N wf).rhsBatch from List.not_mem_nil),
    dif_pos (show (0 : Fin (⟨2, ![N, K]⟩ : Shape).rank) ∈ (lastDims A B K N wf).rhsNonContracting from List.mem_cons_self)]
  rfl

/-- The right operand's column coordinate is the contraction position. -/
theorem rhs_axis1 (j : (⟨3, ![A, B, N]⟩ : Shape).Idx) (c : (lastDims A B K N wf).contr.Idx) :
    ((lastDims A B K N wf).rhsIdx j c 1).val = (c ⟨0, Nat.one_pos⟩).val :=
  (lastDims A B K N wf).rhsIdx_val_of_single rfl j c

/-- The contraction index of these dimension numbers is its one coordinate, a position below `K`. -/
abbrev kEquiv (A B K N : Nat) (wf : DotDims.WF ⟨3, ![A, B, K]⟩ ⟨2, ![N, K]⟩ ⟨3, ![A, B, N]⟩ [2] [1] [0, 1] [0] [] []) :
    (lastDims A B K N wf).contr.Idx ≃ Fin K :=
  contrEquiv1 (lastDims A B K N wf) K rfl rfl

/-- At result entry `(b, s, o)` and contraction position `i` the left operand is read at `(b, s, i)`. -/
theorem lhsIdx_eq (b : Fin A) (s : Fin B) (o : Fin N) (i : Fin K) :
    (lastDims A B K N wf).lhsIdx (ix3 b s o) ((kEquiv A B K N wf).symm i) = ix3 b s i := by
  have hi := contrEquiv1_symm_val (lastDims A B K N wf) K rfl rfl i
  exact funext fun a => Fin.ext (by
    match a with
    | ⟨0, _⟩ => exact lhs_axis0 wf _ _
    | ⟨1, _⟩ => exact lhs_axis1 wf _ _
    | ⟨2, _⟩ => exact (lhs_axis2 wf _ _).trans hi)

/-- At result entry `(b, s, o)` and contraction position `i` the right operand is read at `(o, i)`. -/
theorem rhsIdx_eq (b : Fin A) (s : Fin B) (o : Fin N) (i : Fin K) :
    (lastDims A B K N wf).rhsIdx (ix3 b s o) ((kEquiv A B K N wf).symm i) = ix2 o i := by
  have hi := contrEquiv1_symm_val (lastDims A B K N wf) K rfl rfl i
  exact funext fun a => Fin.ext (by
    match a with
    | ⟨0, _⟩ => exact rhs_axis0 wf _ _
    | ⟨1, _⟩ => exact (rhs_axis1 wf _ _).trans hi)

/-- A `dot_general` with these dimension numbers, at entry `(b, s, o)`: the sum over the contracted position `i` of
    the left operand's entry `(b, s, i)` times the right operand's entry `(o, i)`. -/
theorem lastDims_apply {φ₁ φ₂ : FTy} (prec : Option ContractPrecision) (sched : HostSchedule)
    (l : FVec Ideal ⟨3, ![A, B, K]⟩ φ₁) (r : FVec Ideal ⟨2, ![N, K]⟩ φ₂) (b : Fin A) (s : Fin B) (o : Fin N) :
    FloatOps.dotGeneral (lastDims A B K N wf) prec sched l r (ix3 b s o)
      = ∑ i : Fin K, l (ix3 b s i) * r (ix2 o i) := by
  rw [Ideal.dotGeneral_apply, ← Equiv.sum_comp (kEquiv A B K N wf).symm]
  refine Finset.sum_congr rfl fun i _ => ?_
  rw [lhsIdx_eq, rhsIdx_eq]

end LastAxes

/-! ## The reference's operations at an entry -/

/-- The linear map's `dot_general` at an entry: token `(b, s)` against row `o` of the weight. -/
theorem dot1_apply (l : FVec Ideal S4x2048x4096 .f32) (r : FVec Ideal S4096x4096 .f32) (b : Fin 4) (s : Fin 2048) (o : Fin 4096) :
    Host.dotGeneral (F := Ideal) dot_S4x2048x4096_S4096x4096_S4x2048x4096_2_1_01_0_n_n none l r (ix3 b s o)
      = ∑ i : Fin 4096, l (ix3 b s i) * r (ix2 o i) := by
  simp only [Host.dotGeneral]
  exact lastDims_apply _ none _ l r b s o

/-- The low-rank projection's `dot_general` at an entry: token `(b, s)` against row `q` of the first factor. -/
theorem dot2_apply (l : FVec Ideal S4x2048x4096 .f32) (r : FVec Ideal S16x4096 .f32) (b : Fin 4) (s : Fin 2048) (q : Fin 16) :
    Host.dotGeneral (F := Ideal) dot_S4x2048x4096_S16x4096_S4x2048x16_2_1_01_0_n_n none l r (ix3 b s q)
      = ∑ i : Fin 4096, l (ix3 b s i) * r (ix2 q i) := by
  simp only [Host.dotGeneral]
  exact lastDims_apply _ none _ l r b s q

/-- The low-rank expansion's `dot_general` at an entry: the projection of token `(b, s)` against row `o` of the
    second factor. -/
theorem dot3_apply (l : FVec Ideal S4x2048x16 .f32) (r : FVec Ideal S4096x16 .f32) (b : Fin 4) (s : Fin 2048) (o : Fin 4096) :
    Host.dotGeneral (F := Ideal) dot_S4x2048x16_S4096x16_S4x2048x4096_2_1_01_0_n_n none l r (ix3 b s o)
      = ∑ q : Fin 16, l (ix3 b s q) * r (ix2 o q) := by
  simp only [Host.dotGeneral]
  exact lastDims_apply _ none _ l r b s o

/-- The bias, laid out as `[1, 1, 4096]` and broadcast along the two leading axes, at an entry: its entry `o`. -/
theorem bias_apply (bias : FVec Ideal S4096 .f32) (b : Fin 4) (s : Fin 2048) (o : Fin 4096) :
    broadcastInDim S4x2048x4096 ![0, 1, 2] Facts₀.bcast_S1x1x4096_S4x2048x4096_0_1_2
        (broadcastInDim S1x1x4096 ![2] Facts₀.bcast_S4096_S1x1x4096_2 bias) (ix3 b s o) = bias (ix1 o) := by
  rw [broadcastInDim_apply _ _ _ (ix3 b s o) (ix3 (0 : Fin 1) (0 : Fin 1) o) (fun a => by
      match a with
      | ⟨0, _⟩ => rfl
      | ⟨1, _⟩ => rfl
      | ⟨2, _⟩ => rfl)]
  exact broadcastInDim_apply _ _ _ _ (ix1 o) (fun a => by
      match a with
      | ⟨0, _⟩ => rfl)

/-- A scalar constant broadcast along all three axes, at an entry: the number its word denotes. -/
theorem scale_apply (w : BitVec 32) (b : Fin 4) (s : Fin 2048) (o : Fin 4096) :
    broadcastInDim S4x2048x4096 ![] Facts₀.bcast_S_S4x2048x4096 (constant (F := Ideal) S_ .f32 w) (ix3 b s o)
      = Ideal.ofBits .f32 w := by
  rw [broadcastInDim_apply _ _ _ (ix3 b s o) ix0 (fun a => a.elim0), constant_apply]

/-! ## The term is the common value -/

theorem refTerm_eq (x : FVec Ideal S4x2048x4096 .f32) (codes : IVec S4096x512x2 32) (cb : FVec Ideal S2x256x1x8 .f32)
    (scales : FVec Ideal S4096x1x1x1 .f32) (bias : FVec Ideal S4096 .f32) (a : FVec Ideal S16x4096 .f32)
    (bb : FVec Ideal S4096x16 .f32) :
    Dq.refTerm (F := Ideal) x codes cb scales bias a bb
      = Cert.Spec.out x (Dq.dequant (F := Ideal) codes cb scales) bias a bb := by
  unfold Dq.refTerm
  -- the dequantised weight is the same array on both sides: it stays a letter
  generalize Dq.dequant (F := Ideal) codes cb scales = W
  funext j
  obtain ⟨b, s, o, rfl⟩ : ∃ (b : Fin 4) (s : Fin 2048) (o : Fin 4096), j = ix3 b s o := ⟨j 0, j 1, j 2, eq_ix3 j⟩
  rw [Cert.Spec.out_apply, addf_apply, addf_apply, mulf_apply, dot1_apply, bias_apply, scale_apply, dot3_apply]
  unfold Cert.Spec.outAt Cert.Spec.base Cert.Spec.lora Cert.Spec.low
  -- the two sides differ only inside the low-rank sum: its projection factor is the inner contraction
  refine congrArg (fun t => (∑ i : Fin 4096, x (ix3 b s i) * W (ix2 o i) + bias (ix1 o)) + Ideal.ofBits .f32 0x40000000#32 * t) ?_
  exact Finset.sum_congr rfl fun q _ => by rw [dot2_apply]

end Cert.ReferenceIdeal.Read

end
-- ==== Proof.DequantEq.lean ====
/-
  The two programs build the weight matrix by the same operations of the same arguments: the two terms are one term,
  spelt over each program's own names for the same shapes and the same dimension records.
-/
import proofs.«119632_j5781025980674_1_alg».proof.Proof.KerDequant
import proofs.«119632_j5781025980674_1_alg».proof.Proof.RefDequant

noncomputable section

namespace Cert.DequantEq

open Idealize.ShloMosaic

variable {F : FTy → Type} [FloatOps F]

theorem dequant_eq (codes : IVec Cert.KernelIdeal.S4096x512x2 32) (cb : FVec F Cert.KernelIdeal.S2x256x1x8 .f32)
    (scales : FVec F Cert.KernelIdeal.S4096x1x1x1 .f32) :
    Cert.KernelIdeal.Dq.dequant (F := F) codes cb scales = Cert.ReferenceIdeal.Dq.dequant (F := F) codes cb scales := rfl

end Cert.DequantEq

end
-- ==== Proof.lean ====
/-
  The five claims.

  Both programs compute, for token `(b, s)` and output feature `o`,
    `((∑ i, x[b,s,i] · w[o,i]) + bias[o]) + 2 · ∑ r, (∑ i, x[b,s,i] · a[r,i]) · bb[o,r]`
  over the extended reals, `w` the weight matrix both build from the codes, the codebooks and the scales by the same
  operations. The reference does so with three contractions of whole arrays; the kernel tiles rows and output features in
  blocks of 1024 and runs along the contraction axis in four pieces of 1024, adding each piece's block product to a sum it
  carries, and forms the output block after the last piece. Regrouping a finite sum of extended reals into four consecutive
  pieces added in order needs only that addition is commutative and associative, so the two results are equal for every
  input: the precondition is not used. The ideal pass rewrote nothing, so the kernel's idealization is its own text.
-/
import proofs.«119632_j5781025980674_1_alg».proof.Defs
import proofs.«119632_j5781025980674_1_alg».proof.Proof.Gen.Kernel
import proofs.«119632_j5781025980674_1_alg».proof.Proof.Gen.Kernel.Frame
import proofs.«119632_j5781025980674_1_alg».proof.Proof.Gen.KernelIdeal
import proofs.«119632_j5781025980674_1_alg».proof.Proof.Gen.KernelIdeal.Frame
import proofs.«119632_j5781025980674_1_alg».proof.Proof.Gen.ReferenceIdeal
import proofs.«119632_j5781025980674_1_alg».proof.Proof.Gen.Pre_finite_inputs
import proofs.«119632_j5781025980674_1_alg».proof.Proof.KerFinal
import proofs.«119632_j5781025980674_1_alg».proof.Proof.RefRun
import proofs.«119632_j5781025980674_1_alg».proof.Proof.RefRead
import proofs.«119632_j5781025980674_1_alg».proof.Proof.DequantEq
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end at the common value of those arguments. -/
theorem algebraic : Cert.algebraic_KernelIdeal_ReferenceIdeal := by
  intro m ρ m' ρ' _ hagree
  refine ⟨fun c => Cert.Spec.out (Cert.KernelIdeal.Blocks.X m c) (Cert.KernelIdeal.Blocks.Wd m c)
    (Cert.KernelIdeal.Blocks.bias m c) (Cert.KernelIdeal.Blocks.A m c) (Cert.KernelIdeal.Blocks.B m c),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  refine (Cert.ReferenceIdeal.Read.refTerm_eq _ _ _ _ _ _ _).trans ?_
  exact congrArg (fun W => Cert.Spec.out _ W _ _ _) (Cert.DequantEq.dequant_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
